-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8x64 : Shape := ⟨3, ![1024, 8, 64]⟩
abbrev S1024 : Shape := ⟨1, ![1024]⟩
abbrev S_ : Shape := ⟨0, ![]⟩

class Facts : Prop where
  bcast_S_S1024x8x64 : S_.BroadcastsInDim S1024x8x64 (![] : Fin 0 → Fin S1024x8x64.rank)
  reducesTo_S1024x8x64_S_d0_1_2 : S1024x8x64.ReducesTo [0, 1, 2] S_
  h_S_ : 0 < S_.numel

variable [Facts]

def fn {F : FTy → Type} [FloatOps F] (main_arg0 : FVec F S1024x8x64 .f32) (main_arg1 : IVec S1024 32) : IVec S_ 1 :=
  let main_v0 : FVec F S1024x8x64 .f32 := Host.absf main_arg0
  let main_cst : FVec F S_ .f32 := constant S_ .f32 0x7F800000#32
  let main_v1 : FVec F S1024x8x64 .f32 := broadcastInDim S1024x8x64 ![] bcast_S_S1024x8x64 main_cst
  let main_v2 : IVec S1024x8x64 1 := cmpf .olt main_v0 main_v1
  let main_c : IVec S_ 1 := constantI S_ 1 1#1
  let main_v3 : IVec S_ 1 := (fun x v => Host.reduce IntOp.andi x v reducesTo_S1024x8x64_S_d0_1_2 h_S_) main_v2 main_c
  main_v3
-- ==== Kernel.lean ====
abbrev S1024x8x64 : Shape := ⟨3, ![1024, 8, 64]⟩
abbrev S1024 : Shape := ⟨1, ![1024]⟩
abbrev S8x1024x64 : Shape := ⟨3, ![8, 1024, 64]⟩
abbrev S8192x64 : Shape := ⟨2, ![8192, 64]⟩
abbrev S1x1024 : Shape := ⟨2, ![1, 1024]⟩
abbrev S8x1024 : Shape := ⟨2, ![8, 1024]⟩
abbrev S8192 : Shape := ⟨1, ![8192]⟩
abbrev S8192x1 : Shape := ⟨2, ![8192, 1]⟩
abbrev S1x8192 : Shape := ⟨2, ![1, 8192]⟩
abbrev S8192x128 : Shape := ⟨2, ![8192, 128]⟩
abbrev S256x1 : Shape := ⟨2, ![256, 1]⟩
abbrev S256x128 : Shape := ⟨2, ![256, 128]⟩
abbrev S256x8192 : Shape := ⟨2, ![256, 8192]⟩
abbrev S256x64 : Shape := ⟨2, ![256, 64]⟩
abbrev S1024x64 : Shape := ⟨2, ![1024, 64]⟩
abbrev S256x1024 : Shape := ⟨2, ![256, 1024]⟩
abbrev S256 : Shape := ⟨1, ![256]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S1024x8x64, .f32⟩
  | .hbm, ⟨1, _⟩ => ⟨S1024, .i32⟩
  | .hbm, ⟨2, _⟩ => ⟨S8x1024x64, .f32⟩
  | .hbm, ⟨3, _⟩ => ⟨S8192x64, .f32⟩
  | .hbm, ⟨4, _⟩ => ⟨S1x1024, .i32⟩
  | .hbm, ⟨5, _⟩ => ⟨S8x1024, .i32⟩
  | .hbm, ⟨6, _⟩ => ⟨S8192, .i32⟩
  | .hbm, ⟨7, _⟩ => ⟨S8192x1, .i32⟩
  | .hbm, ⟨8, _⟩ => ⟨S1x8192, .i32⟩
  | .hbm, ⟨9, _⟩ => ⟨S8192x128, .f32⟩
  | .hbm, ⟨10, _⟩ => ⟨S8192x1, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S256x1, .i32⟩
  | .local _ .vmem, ⟨1, _⟩ => ⟨S256x1, .i32⟩
  | .local _ .vmem, ⟨2, _⟩ => ⟨S8192x64, .f32⟩
  | .local _ .vmem, ⟨3, _⟩ => ⟨S1x8192, .i32⟩
  | .local _ .vmem, ⟨4, _⟩ => ⟨S256x128, .f32⟩
  | .local _ .vmem, ⟨5, _⟩ => ⟨S256x128, .f32⟩
  | .local _ .vmem, ⟨6, _⟩ => ⟨S256x8192, .f32⟩
  | .local _ .vmem, ⟨7, _⟩ => ⟨S256x8192, .f32⟩
  | _, _ => ⟨S1024x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c1024_i32 : BitVec 32 := 1024#32
  let v28 : BitVec 32 := Scalar.muli arg7 c1024_i32
  v28
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1024_i32 : BitVec 32 := 1024#32
  let v28 : BitVec 32 := Scalar.muli arg7 c1024_i32
  let v29 : BitVec 32 := v28
  let v30 : Index := Scalar.indexCast v29
  let c0_17 : Index := 0#32
  ![v30.toNat, 0]
def k0_off3 (k0_t1 : Fin k0_t1_loop.trips) : Fin 2 → Nat :=
  let c0_20 : Index := 0#32
  let c0_i32 : BitVec 32 := 0#32
  let c1_i32 : BitVec 32 := 1#32
  let arg7 : BitVec 32 := Scf.iv c0_i32 c1_i32 k0_t1
  let c1024_i32 : BitVec 32 := 1024#32
  let v28 : BitVec 32 := Scalar.muli arg7 c1024_i32
  let v29 : BitVec 32 := v28
  let v36 : Index := Scalar.indexCast v29
  ![0, v36.toNat]
@[reducible] def k0_t2_loop : Scf.Loop 32 :=
  let c0_i32_2 : BitVec 32 := 0#32
  let c8_i32_3 : BitVec 32 := 8#32
  let v9 : BitVec 32 := Scalar.addi c0_i32_2 c8_i32_3
  let c1_i32_4 : BitVec 32 := 1#32
  ⟨c0_i32_2, v9, c1_i32_4⟩
def k0_mult3 (k0_t2 : Fin k0_t2_loop.trips) : BitVec 32 :=
  let c0_i32_2 : BitVec 32 := 0#32
  let c1_i32_4 : BitVec 32 := 1#32
  let arg7 : BitVec 32 := Scf.iv c0_i32_2 c1_i32_4 k0_t2
  let c1024_i32 : BitVec 32 := 1024#32
  let v28 : BitVec 32 := Scalar.muli arg7 c1024_i32
  v28
def k0_off4 (k0_t2 : Fin k0_t2_loop.trips) : Fin 2 → Nat :=
  let c0_17 : Index := 0#32
  let c0_i32_2 : BitVec 32 := 0#32
  let c1_i32_4 : BitVec 32 := 1#32
  let arg7 : BitVec 32 := Scf.iv c0_i32_2 c1_i32_4 k0_t2
  let c1024_i32 : BitVec 32 := 1024#32
  let v28 : BitVec 32 := Scalar.muli arg7 c1024_i32
  let v29 : BitVec 32 := v28
  let v30 : Index := Scalar.indexCast v29
  ![0, v30.toNat]
def k0_off5 (k0_t2 : Fin k0_t2_loop.trips) : Fin 2 → Nat :=
  let c0_18 : Index := 0#32
  let c0_i32_2 : BitVec 32 := 0#32
  let c1_i32_4 : BitVec 32 := 1#32
  let arg7 : BitVec 32 := Scf.iv c0_i32_2 c1_i32_4 k0_t2
  let c1024_i32 : BitVec 32 := 1024#32
  let v28 : BitVec 32 := Scalar.muli arg7 c1024_i32
  let v29 : BitVec 32 := v28
  let v32 : Index := Scalar.indexCast v29
  ![0, v32.toNat]
@[reducible] def k0_t3_loop : Scf.Loop 32 :=
  let c0_i32_8 : BitVec 32 := 0#32
  let c8_i32_9 : BitVec 32 := 8#32
  let v16 : BitVec 32 := Scalar.addi c0_i32_8 c8_i32_9
  let c1_i32_10 : BitVec 32 := 1#32
  ⟨c0_i32_8, v16, c1_i32_10⟩
def k0_mult4 (k0_t3 : Fin k0_t3_loop.trips) : BitVec 32 :=
  let c0_i32_8 : BitVec 32 := 0#32
  let c1_i32_10 : BitVec 32 := 1#32
  let arg7 : BitVec 32 := Scf.iv c0_i32_8 c1_i32_10 k0_t3
  let c1024_i32 : BitVec 32 := 1024#32
  let v28 : BitVec 32 := Scalar.muli arg7 c1024_i32
  v28
def k0_off6 (k0_t3 : Fin k0_t3_loop.trips) : Fin 2 → Nat :=
  let c0_17 : Index := 0#32
  let c0_i32_8 : BitVec 32 := 0#32
  let c1_i32_10 : BitVec 32 := 1#32
  let arg7 : BitVec 32 := Scf.iv c0_i32_8 c1_i32_10 k0_t3
  let c1024_i32 : BitVec 32 := 1024#32
  let v28 : BitVec 32 := Scalar.muli arg7 c1024_i32
  let v29 : BitVec 32 := v28
  let v30 : Index := Scalar.indexCast v29
  ![0, v30.toNat]
def k0_off7 (k0_t3 : Fin k0_t3_loop.trips) : Fin 2 → Nat :=
  let c0_19 : Index := 0#32
  let c0_i32_8 : BitVec 32 := 0#32
  let c1_i32_10 : BitVec 32 := 1#32
  let arg7 : BitVec 32 := Scf.iv c0_i32_8 c1_i32_10 k0_t3
  let c1024_i32 : BitVec 32 := 1024#32
  let v28 : BitVec 32 := Scalar.muli arg7 c1024_i32
  let v29 : BitVec 32 := v28
  let v34 : Index := Scalar.indexCast v29
  ![0, v34.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x8x64_S8x1024x64_1_0_2 : S1024x8x64.Transposes [1, 0, 2] S8x1024x64
  shapeCasts_S8x1024x64_S8192x64 : S8x1024x64.ShapeCasts S8192x64
  shapeCasts_S1024_S1x1024 : S1024.ShapeCasts S1x1024
  bcast_S1x1024_S8x1024_0_1 : S1x1024.BroadcastsInDim S8x1024 (![0, 1] : Fin 2 → Fin S8x1024.rank)
  shapeCasts_S8x1024_S8192 : S8x1024.ShapeCasts S8192
  shapeCasts_S8192_S8192x1 : S8192.ShapeCasts S8192x1
  shapeCasts_S8192_S1x8192 : S8192.ShapeCasts S1x8192
  h_S256x64 : 0 < S256x64.numel
  shapeCasts_S256x64_S256x64 : S256x64.ShapeCasts S256x64
  h_S1024x64 : 0 < S1024x64.numel
  shapeCasts_S1024x64_S1024x64 : S1024x64.ShapeCasts S1024x64
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  h_S1x1024 : 0 < S1x1024.numel
  shapeCasts_S1x1024_S1x1024 : S1x1024.ShapeCasts S1x1024
  broadcasts_S256x1_S256x1024 : S256x1.Broadcasts S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S1x1024_S256x1024 : S1x1024.Broadcasts S256x1024
  iota_S256x1_d0_w32 : S256x1.Iotas .tc 32 [0]
  iota_S1x1024_d1_w32 : S1x1024.Iotas .tc 32 [1]
  natLt_1_32 : 1 < 32
  broadcasts_S256x1_S256x128 : S256x1.Broadcasts S256x128
  inb_S256x128_S256x128_0_0 : ∀ a, (![0, 0] : Fin 2 → Nat) a + S256x128.size a ≤ S256x128.size a
  h_S256x128 : 0 < S256x128.numel
  slices_S8192x128_S8192x1_0_0 : S8192x128.Slices ![0, 0] S8192x1
  shapeCasts_S8192x1_S8192 : S8192x1.ShapeCasts S8192
  reducesTo_S8192_S_d0 : S8192.ReducesTo [0] S_
  h_S_ : 0 < S_.numel
  dot_S256x64_S1024x64_S256x1024_1_1_0_0_n_n_wf : DotDims.WF S256x64 S1024x64 S256x1024 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x64.size a ≤ S8192x64.size a
  k0_t1_ok : k0_t1_loop.OK
  k0_mult2_dvd : ∀ k0_t1 : Fin k0_t1_loop.trips, 1024 ∣ (k0_mult2 k0_t1).toNat
  k0_off2_inb : ∀ k0_t1 : Fin k0_t1_loop.trips, ∀ a, (k0_off2 k0_t1) a + S1024x64.size a ≤ S8192x64.size a
  k0_off3_inb : ∀ k0_t1 : Fin k0_t1_loop.trips, ∀ a, (k0_off3 k0_t1) a + S256x1024.size a ≤ S256x8192.size a
  k0_t2_ok : k0_t2_loop.OK
  k0_mult3_dvd : ∀ k0_t2 : Fin k0_t2_loop.trips, 1024 ∣ (k0_mult3 k0_t2).toNat
  k0_off4_inb : ∀ k0_t2 : Fin k0_t2_loop.trips, ∀ a, (k0_off4 k0_t2) a + S256x1024.size a ≤ S256x8192.size a
  k0_off5_inb : ∀ k0_t2 : Fin k0_t2_loop.trips, ∀ a, (k0_off5 k0_t2) a + S1x1024.size a ≤ S1x8192.size a
  k0_t3_ok : k0_t3_loop.OK
  k0_mult4_dvd : ∀ k0_t3 : Fin k0_t3_loop.trips, 1024 ∣ (k0_mult4 k0_t3).toNat
  k0_off6_inb : ∀ k0_t3 : Fin k0_t3_loop.trips, ∀ a, (k0_off6 k0_t3) a + S256x1024.size a ≤ S256x8192.size a
  k0_off7_inb : ∀ k0_t3 : Fin k0_t3_loop.trips, ∀ a, (k0_off7 k0_t3) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .i32 = 32 ∨ (Rect.block (s := S8192x1) S256x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S8192x128.size a
  hwx0_3 : ∀ i : grid0.Coords, EltTy.bits .f32 = 32 ∨ (Rect.block (s := S8192x128) S256x128.size (cc0_transform_3 i) (hinb0_3 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf

abbrev win0_0 : Pipeline.Window sig grid0 :=
  Pipeline.Window.ofSpec (Memref.whole main_v5) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x8x64 : Shape := ⟨3, ![1024, 8, 64]⟩
abbrev S1024 : Shape := ⟨1, ![1024]⟩
abbrev S8x1024x64 : Shape := ⟨3, ![8, 1024, 64]⟩
abbrev S8192x64 : Shape := ⟨2, ![8192, 64]⟩
abbrev S1x1024 : Shape := ⟨2, ![1, 1024]⟩
abbrev S8x1024 : Shape := ⟨2, ![8, 1024]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S64x8192 : Shape := ⟨2, ![64, 8192]⟩

abbrev nBuf : Space → Nat
  | .hbm => 59
  | .vmem => 0
  | .smem => 0
  | _ => 0

abbrev bufTy : (tb : Table) → Fin (tcTables nBuf tb) → BufTy
  | .hbm, ⟨0, _⟩ => ⟨S1024x8x64, .f32⟩
  | .hbm, ⟨1, _⟩ => ⟨S1024, .i32⟩
  | .hbm, ⟨2, _⟩ => ⟨S8x1024x64, .f32⟩
  | .hbm, ⟨3, _⟩ => ⟨S8192x64, .f32⟩
  | .hbm, ⟨4, _⟩ => ⟨S1x1024, .i32⟩
  | .hbm, ⟨5, _⟩ => ⟨S8x1024, .i32⟩
  | .hbm, ⟨6, _⟩ => ⟨S8192, .i32⟩
  | .hbm, ⟨7, _⟩ => ⟨S8192x1, .i32⟩
  | .hbm, ⟨8, _⟩ => ⟨S1x8192, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  transposes_S1024x8x64_S8x1024x64_1_0_2 : S1024x8x64.Transposes [1, 0, 2] S8x1024x64
  shapeCasts_S8x1024x64_S8192x64 : S8x1024x64.ShapeCasts S8192x64
  shapeCasts_S1024_S1x1024 : S1024.ShapeCasts S1x1024
  bcast_S1x1024_S8x1024_0_1 : S1x1024.BroadcastsInDim S8x1024 (![0, 1] : Fin 2 → Fin S8x1024.rank)
  shapeCasts_S8x1024_S8192 : S8x1024.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.LibWholeWrites.lean ====
/-
  A buffer seen whole and then overwritten everywhere forgets what it held.

  A memref that is the whole of its buffer determines the buffer's contents by what one reads through it.  So
  if a list of stores through it covers every index, the contents afterwards are the same whatever the contents
  before: two runs of the same stores over different prior contents leave equal buffers, as contents and not only
  as reads.  This is what lets a value computed from a scratch buffer, every part of which was stored before it
  was loaded, be stated without naming what the scratch held on entry.
-/
import Idealize.ShloMosaic.Lib.Writes
import Idealize.ShloMosaic.Lib.Pipeline.Frame

namespace Idealize.ShloMosaic

variable {sig : RefSig} {κ : Kind} {sp : Space} {s : Shape} {e : EltTy} {Val : EltTy → Type}

/-- Stores through a whole memref that cover its shape leave contents independent of the prior contents. -/
theorem Memref.IsWhole.writes_eq_of_cover {m : Memref sig κ sp s e} (h : m.IsWhole)
    (f f' : m.view.ty.Contents Val) (L : List (View.Piece Val s e)) (hc : ∀ y, ∃ p ∈ L, y ∈ p.1.set) :
    m.view.writes Val f L = m.view.writes Val f' L :=
  (h.eq_unread (View.read_writes_of_cover m.view f m.view f' L hc)).trans (h.eq_unread rfl).symm

end Idealize.ShloMosaic
-- ==== Proof.Spec.lean ====
/-
  The supervised contrastive loss of 8192 feature rows, as one function of the rows and their labels,
  index by index over the extended reals.

  Row i's similarity to row j is the inner product of the two rows scaled by the inverse temperature; the row's
  maximum similarity is subtracted; the negatives' exponentials are summed over the rows with another label; the
  log-probability of j given i is the shifted similarity minus the logarithm of j's exponential plus that sum; the
  row's loss is minus the mean of the log-probabilities over the positives (same label, j ≠ i); the result is the
  mean of the rows' losses.  Float literals that both programs carry (−∞ as the maximum's start, −1, 8192, 0) are
  kept as the words they are printed as: nothing depends on their values except that the zero word is 0.
-/
import Idealize.ShloMosaic.PureOps.Ideal
import Idealize.ShloMosaic.Lib.ValueIdx

noncomputable section

open scoped BigOperators

namespace Cert.Spec

open Idealize.ShloMosaic

/-- The inverse temperature: one over the single-precision number nearest to 0.1, which is 13421773 / 2^27. -/
def invTemp : EReal := ((134217728 / 13421773 : ℝ) : EReal)

/-- The word of −∞, the start of a running maximum. -/
abbrev negInf : EReal := Ideal.ofBits .f32 0xFF800000#32

section
variable (X : Fin 8192 → Fin 64 → EReal) (lab : Fin 8192 → BitVec 32)

/-- The inner product of rows i and j. -/
def sim (i j : Fin 8192) : EReal := ∑ d : Fin 64, X i d * X j d

/-- The similarity scaled by the inverse temperature. -/
def logit (i j : Fin 8192) : EReal := sim X i j * invTemp

/-- Row i's largest scaled similarity. -/
def rowMax (i : Fin 8192) : EReal := (Finset.univ : Finset (Fin 8192)).fold max negInf (fun j => logit X i j)

/-- The scaled similarity less the row's maximum. -/
def shifted (i j : Fin 8192) : EReal := logit X i j - rowMax X i

/-- Its exponential. -/
def expo (i j : Fin 8192) : EReal := Ideal.exp (shifted X i j)

/-- The sum of row i's exponentials over the rows of another label. -/
def negSum (i : Fin 8192) : EReal := ∑ j : Fin 8192, if lab i = lab j then 0 else expo X i j

/-- The log-probability of j given i. -/
def logProb (i j : Fin 8192) : EReal := shifted X i j - Ideal.log (expo X i j + negSum X lab i)

/-- j is a positive of i: the same label and another row. -/
def isPos (i j : Fin 8192) : Prop := lab j = lab i ∧ i ≠ j

instance (i j : Fin 8192) : Decidable (isPos lab i j) := by unfold isPos; infer_instance

/-- The sum of the log-probabilities over row i's positives. -/
def posSum (i : Fin 8192) : EReal := ∑ j : Fin 8192, if isPos lab i j then logProb X lab i j else 0

/-- The number of row i's positives. -/
def posCnt (i : Fin 8192) : EReal := ∑ j : Fin 8192, if isPos lab i j then 1 else 0

/-- Row i's loss: minus the mean log-probability over its positives. -/
def lossRow (i : Fin 8192) : EReal :=
  Ideal.ofBits .f32 0xBF800000#32 * Ideal.div (posSum X lab i) (posCnt lab i)

/-- The mean of the rows' losses. -/
def meanLoss : EReal := Ideal.div (0 + ∑ i : Fin 8192, lossRow X lab i) (Ideal.ofBits .f32 0x46000000#32)

end

/-- The stacked rows of a [1024, 8, 64] array of features, view by view: row r is anchor r mod 1024 seen in view r / 1024. -/
def stackRows (feats : (⟨3, ![1024, 8, 64]⟩ : Shape).Idx → EReal) : Fin 8192 → Fin 64 → EReal :=
  fun r d => feats (ValueIdx.ix3 ⟨r.val % 1024, Nat.mod_lt _ (by norm_num)⟩ ⟨r.val / 1024, by have := r.isLt; omega⟩ d)

/-- The stacked rows' labels: row r carries the label of anchor r mod 1024. -/
def stackLabels (labels : (⟨1, ![1024]⟩ : Shape).Idx → BitVec 32) : Fin 8192 → BitVec 32 :=
  fun r => labels (ValueIdx.ix1 ⟨r.val % 1024, Nat.mod_lt _ (by norm_num)⟩)

/-- A [8192, 64] array as its rows. -/
def rowsOf (x : (⟨2, ![8192, 64]⟩ : Shape).Idx → EReal) : Fin 8192 → Fin 64 → EReal :=
  fun i d => x (ValueIdx.ix2 i d)

/-- A [8192] array of words as a function of the row. -/
def labOf (l : (⟨1, ![8192]⟩ : Shape).Idx → BitVec 32) : Fin 8192 → BitVec 32 := fun i => l (ValueIdx.ix1 i)

end Cert.Spec

end
-- ==== Proof.RefValue.lean ====
/-
  The reference's result is the mean contrastive loss of the stacked rows.

  Read index by index: the transpose and reshape of the features are the stacked rows, the tiled labels the stacked
  labels; the product of the rows with their transpose, divided by the single-precision number nearest 0.1, is the
  similarity times the exact inverse 134217728 / 13421773; the row's maximum is the fold of max from the word of −∞;
  the two masks are 0-or-1 indicators (equal labels; equal row numbers, which as 32-bit words below 8192 are equal
  exactly when the numbers are), so each product with a mask is an if-then-else; the three row sums start from the
  zero word, which is 0; the words of −1 and 8192 are kept as words.
-/
import proofs.«410188_j47519518162964_3_alg».proof.Proof.Gen.ReferenceIdeal.Run
import proofs.«410188_j47519518162964_3_alg».proof.Proof.Gen.ReferenceIdeal.Read
import proofs.«410188_j47519518162964_3_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The stacked rows and labels -/

/-- Row r of the stacked array is anchor r mod 1024 in view r / 1024. -/
theorem rows_apply (x0 : (⟨S1024x8x64, .f32⟩ : BufTy).Contents (Elt Ideal)) (r : Fin 8192) (d : Fin 64) :
    val_main_v1 (F := Ideal) x0 (ix2 r d) = Cert.Spec.stackRows x0 r d := by
  rw [val_main_v1_apply, val_main_v0_apply]
  unfold Cert.Spec.stackRows
  have hr := r.isLt
  have hd := d.isLt
  refine congrArg x0 (funext fun a => Fin.ext ?_)
  match a with
  | ⟨0, _⟩ => show (r.val * 64 + d.val) / 64 % 1024 = r.val % 1024; omega
  | ⟨1, _⟩ => show (r.val * 64 + d.val) / 65536 = r.val / 1024; omega
  | ⟨2, _⟩ => show (r.val * 64 + d.val) % 64 = d.val; omega

/-- Row r's label is the label of anchor r mod 1024. -/
theorem labels_apply (x1 : (⟨S1024, .i32⟩ : BufTy).Contents (Elt Ideal)) (r : Fin 8192) :
    val_main_v4 (F := Ideal) x1 (ix1 r) = Cert.Spec.stackLabels x1 r := by
  rw [val_main_v4_apply, val_main_v3_apply, val_main_v2_apply]
  unfold Cert.Spec.stackLabels
  refine congrArg x1 (funext fun a => Fin.ext ?_)
  match a with
  | ⟨0, _⟩ => show 0 * 1024 + r.val % 1024 = r.val % 1024; omega

/-- The word of the single-precision number nearest 0.1. -/
theorem ofBits_tenth : Ideal.ofBits .f32 0x3DCCCCCD#32 = ((13421773 / 134217728 : ℝ) : EReal) := by
  simp [Ideal.ofBits, Ideal.ieee, -EReal.coe_mul]; norm_num

/-- The equality bit of two words, as a number, is 1 where they are equal and 0 elsewhere. -/
theorem uitofp_cmpi_eq {w : Nat} (a b : BitVec w) :
    FloatOps.uitofp (F := Ideal) .f32 (IntOp.cmpi .eq a b) = if a = b then (1 : EReal) else 0 := by
  show (((BitVec.ofBool (a == b)).toNat : ℝ) : EReal) = _
  by_cases h : a = b
  · rw [if_pos h, beq_iff_eq.mpr h]; simp
  · rw [if_neg h, beq_eq_false_iff_ne.mpr h]; simp

/-! ## Words and numbers -/

/-- Two row numbers below 8192 are equal as 32-bit words exactly when they are equal. -/
theorem ofNat_eq_iff (i j : Fin 8192) : BitVec.ofNat 32 i.val = BitVec.ofNat 32 j.val ↔ i = j := by
  constructor
  · intro h
    have e := congrArg BitVec.toNat h
    simp only [BitVec.toNat_ofNat] at e
    have hi := i.isLt
    have hj := j.isLt
    exact Fin.ext (by omega)
  · rintro rfl; rfl

/-- The scaled similarity of rows i and j: the division by the word of 0.1 is the product with its exact inverse. -/
theorem logit_apply (x0 : (⟨S1024x8x64, .f32⟩ : BufTy).Contents (Elt Ideal)) (i j : Fin 8192) :
    val_main_v16 (F := Ideal) x0 (ix2 i j) = Cert.Spec.logit (Cert.Spec.stackRows x0) i j := by
  rw [val_main_v16_apply, val_main_v15_apply, val_main_cst_0_apply, val_main_v14_apply]
  rw [Ideal.hostDivf_def, Ideal.ofBits_def, ofBits_tenth, Ideal.div_coe (by norm_num)]
  unfold Cert.Spec.logit Cert.Spec.sim Cert.Spec.invTemp
  refine congrArg₂ (· * ·) (Finset.sum_congr rfl fun k _ => ?_) (congrArg _ (by norm_num))
  rw [val_main_v13_apply]
  have e1 : lidx_main_v14 (ix2 i j) k = ix2 i k :=
    funext fun a => Fin.ext (by match a with | ⟨0, _⟩ => rfl | ⟨1, _⟩ => rfl)
  have e2 : idx_main_v13 (ridx_main_v14 (ix2 i j) k) = ix2 j k :=
    funext fun a => Fin.ext (by match a with | ⟨0, _⟩ => rfl | ⟨1, _⟩ => rfl)
  rw [e1, e2, rows_apply, rows_apply]

/-- Row i's maximum: the fold of max from the word of −∞ over the row's scaled similarities. -/
theorem rowMax_apply (x0 : (⟨S1024x8x64, .f32⟩ : BufTy).Contents (Elt Ideal)) (i : Fin 8192) :
    val_main_v17 (F := Ideal) x0 (ix1 i) = Cert.Spec.rowMax (Cert.Spec.stackRows x0) i := by
  unfold val_main_v17
  have h : S8192x8192.Reduces [1] S8192 := by decide
  rw [Host.reduce_eq_fold_single FloatOps.maximumf _ _ reducesTo_S8192x8192_S8192_d1 h h_S_]
  have hf : (val_main_v16 (F := Ideal) x0 ∘ h.lift (ix1 i))
      = fun k : Fin 8192 => Cert.Spec.logit (Cert.Spec.stackRows x0) i k :=
    funext fun k => by
      have e : h.lift (ix1 i) k = ix2 i (⟨k.val, k.isLt⟩ : Fin 8192) :=
        funext fun c => Fin.ext (by fin_cases c <;> rfl)
      exact (congrArg (val_main_v16 (F := Ideal) x0) e).trans (logit_apply x0 i ⟨k.val, k.isLt⟩)
  exact congrArg (fun f => Finset.fold max Cert.Spec.negInf f (Finset.univ : Finset (Fin 8192))) hf

/-! ## The masks, the shifted similarities and the negatives' sum -/

section
variable (x0 : (⟨S1024x8x64, .f32⟩ : BufTy).Contents (Elt Ideal)) (x1 : (⟨S1024, .i32⟩ : BufTy).Contents (Elt Ideal))

local notation "X" => Cert.Spec.stackRows x0
local notation "lab" => Cert.Spec.stackLabels x1

theorem one_sub_one : (1 : EReal) - 1 = 0 := by
  rw [← EReal.coe_one, ← EReal.coe_sub, sub_self, EReal.coe_zero]

/-- The same-label indicator at (i, j). -/
theorem sameLabel_apply (i j : Fin 8192) :
    val_main_v10 (F := Ideal) x1 (ix2 i j) = if lab i = lab j then (1 : EReal) else 0 := by
  rw [val_main_v10_apply, val_main_v9_apply, val_main_v7_apply, val_main_v8_apply, val_main_v5_apply, val_main_v6_apply]
  have e1 : idx_main_v5 (idx_main_v7 (ix2 i j)) = ix1 i := funext fun a => Fin.ext (by match a with | ⟨0, _⟩ => rfl)
  have e2 : idx_main_v6 (idx_main_v8 (ix2 i j)) = ix1 j := funext fun a => Fin.ext (by match a with | ⟨0, _⟩ => rfl)
  rw [e1, e2, labels_apply, labels_apply, uitofp_cmpi_eq]

/-- The diagonal indicator at (i, j): the two row numbers, as words, are equal exactly when i = j. -/
theorem diag_apply (i j : Fin 8192) :
    val_main_v26 (F := Ideal) (ix2 i j) = if i = j then (1 : EReal) else 0 := by
  rw [val_main_v26_apply, val_main_v25_apply, val_main_v24_apply, val_main_v21_apply, val_main_v22_apply,
    val_main_v23_apply, val_main_c_apply, uitofp_cmpi_eq]
  have e : IntOp.addi (BitVec.ofNat 32 ((ix2 i j : S8192x8192.Idx) 0).val) 0#32 = BitVec.ofNat 32 i.val := BitVec.add_zero _
  rw [e]
  exact if_congr (ofNat_eq_iff i j) rfl rfl

/-- One less the same-label indicator: 0 on the same label, 1 on another. -/
theorem otherLabel_apply (i j : Fin 8192) :
    val_main_v12 (F := Ideal) x1 (ix2 i j) = if lab i = lab j then (0 : EReal) else 1 := by
  rw [val_main_v12_apply, val_main_v11_apply, val_main_cst_apply, sameLabel_apply, Ideal.subf_def, Ideal.ofBits_def,
    Ideal.ofBits_one_f32]
  by_cases h : lab i = lab j
  · rw [if_pos h, if_pos h]; exact one_sub_one
  · rw [if_neg h, if_neg h]; exact sub_zero 1

/-- One less the diagonal indicator: 0 on the diagonal, 1 off it. -/
theorem offDiag_apply (i j : Fin 8192) :
    val_main_v28 (F := Ideal) (ix2 i j) = if i = j then (0 : EReal) else 1 := by
  rw [val_main_v28_apply, val_main_v27_apply, val_main_cst_2_apply, diag_apply, Ideal.subf_def, Ideal.ofBits_def,
    Ideal.ofBits_one_f32]
  by_cases h : i = j
  · rw [if_pos h, if_pos h]; exact one_sub_one
  · rw [if_neg h, if_neg h]; exact sub_zero 1

/-- The positives' indicator: same label and off the diagonal. -/
theorem isPos_apply (i j : Fin 8192) :
    val_main_v29 (F := Ideal) x1 (ix2 i j) = if Cert.Spec.isPos lab i j then (1 : EReal) else 0 := by
  rw [val_main_v29_apply, sameLabel_apply, offDiag_apply, Ideal.mulf_def]
  by_cases h1 : lab i = lab j
  · by_cases h2 : i = j
    · rw [if_pos h1, if_pos h2, if_neg (fun h : Cert.Spec.isPos lab i j => h.2 h2), mul_zero]
    · rw [if_pos h1, if_neg h2, if_pos (show Cert.Spec.isPos lab i j from ⟨h1.symm, h2⟩), mul_one]
  · rw [if_neg h1, if_neg (fun h : Cert.Spec.isPos lab i j => h1 h.1.symm), zero_mul]

/-- The scaled similarity less the row's maximum. -/
theorem shifted_apply (i j : Fin 8192) :
    val_main_v20 (F := Ideal) x0 (ix2 i j) = Cert.Spec.shifted X i j := by
  rw [val_main_v20_apply, val_main_v19_apply, val_main_v18_apply, logit_apply]
  have e : idx_main_v18 (idx_main_v19 (ix2 i j)) = ix1 i := funext fun a => Fin.ext (by match a with | ⟨0, _⟩ => rfl)
  rw [e, rowMax_apply, Ideal.subf_def]
  rfl

/-- Its exponential. -/
theorem expo_apply (i j : Fin 8192) :
    val_main_v30 (F := Ideal) x0 (ix2 i j) = Cert.Spec.expo X i j := by
  rw [val_main_v30_apply, shifted_apply, Ideal.hostUnary_exp_def]
  rfl

/-- The negatives' term: the exponential on another label, 0 on the same. -/
theorem negTerm_apply (i j : Fin 8192) :
    val_main_v31 (F := Ideal) x0 x1 (ix2 i j) = if lab i = lab j then 0 else Cert.Spec.expo X i j := by
  rw [val_main_v31_apply, expo_apply, otherLabel_apply, Ideal.mulf_def]
  by_cases h : lab i = lab j
  · rw [if_pos h, if_pos h, mul_zero]
  · rw [if_neg h, if_neg h, mul_one]

/-- The row's sum over the negatives. -/
theorem negSum_apply (i : Fin 8192) :
    val_main_v32 (F := Ideal) x0 x1 (ix1 i) = Cert.Spec.negSum X lab i := by
  rw [val_main_v32_apply, val_main_cst_3_apply, Ideal.ofBits_def, Ideal.ofBits_zero_f32, zero_add]
  unfold Cert.Spec.negSum
  refine Finset.sum_congr rfl fun k _ => ?_
  have e : idx_main_v32 (ix1 i) k = ix2 i k :=
    funext fun a => Fin.ext (by match a with | ⟨0, _⟩ => rfl | ⟨1, _⟩ => rfl)
  rw [e, negTerm_apply]

end

/-! ## The positives' sums, the rows' losses and their mean -/

section
variable (x0 : (⟨S1024x8x64, .f32⟩ : BufTy).Contents (Elt Ideal)) (x1 : (⟨S1024, .i32⟩ : BufTy).Contents (Elt Ideal))

local notation "X" => Cert.Spec.stackRows x0
local notation "lab" => Cert.Spec.stackLabels x1

/-- The log-probability of j given i. -/
theorem logProb_apply (i j : Fin 8192) :
    val_main_v37 (F := Ideal) x0 x1 (ix2 i j) = Cert.Spec.logProb X lab i j := by
  rw [val_main_v37_apply, val_main_v36_apply, val_main_v35_apply, val_main_v34_apply, val_main_v33_apply,
    shifted_apply, expo_apply]
  have e : idx_main_v33 (idx_main_v34 (ix2 i j)) = ix1 i := funext fun a => Fin.ext (by match a with | ⟨0, _⟩ => rfl)
  rw [e, negSum_apply, Ideal.hostUnary_log_def, Ideal.addf_def, Ideal.subf_def]
  rfl

/-- The positives' term: the log-probability on a positive, 0 elsewhere. -/
theorem posTerm_apply (i j : Fin 8192) :
    val_main_v38 (F := Ideal) x0 x1 (ix2 i j)
      = if Cert.Spec.isPos lab i j then Cert.Spec.logProb X lab i j else 0 := by
  rw [val_main_v38_apply, isPos_apply, logProb_apply, Ideal.mulf_def]
  by_cases h : Cert.Spec.isPos lab i j
  · rw [if_pos h, if_pos h, one_mul]
  · rw [if_neg h, if_neg h, zero_mul]

/-- The row's sum of log-probabilities over its positives. -/
theorem posSum_apply (i : Fin 8192) :
    val_main_v39 (F := Ideal) x0 x1 (ix1 i) = Cert.Spec.posSum X lab i := by
  rw [val_main_v39_apply, val_main_cst_4_apply, Ideal.ofBits_def, Ideal.ofBits_zero_f32, zero_add]
  unfold Cert.Spec.posSum
  refine Finset.sum_congr rfl fun k _ => ?_
  have e : idx_main_v39 (ix1 i) k = ix2 i k :=
    funext fun a => Fin.ext (by match a with | ⟨0, _⟩ => rfl | ⟨1, _⟩ => rfl)
  rw [e, posTerm_apply]

/-- The number of the row's positives. -/
theorem posCnt_apply (i : Fin 8192) :
    val_main_v40 (F := Ideal) x1 (ix1 i) = Cert.Spec.posCnt lab i := by
  rw [val_main_v40_apply, val_main_cst_5_apply, Ideal.ofBits_def, Ideal.ofBits_zero_f32, zero_add]
  unfold Cert.Spec.posCnt
  refine Finset.sum_congr rfl fun k _ => ?_
  have e : idx_main_v40 (ix1 i) k = ix2 i k :=
    funext fun a => Fin.ext (by match a with | ⟨0, _⟩ => rfl | ⟨1, _⟩ => rfl)
  rw [e, isPos_apply]

/-- The row's loss: the word of −1 times the mean log-probability over the positives. -/
theorem lossRow_apply (i : Fin 8192) :
    val_main_v43 (F := Ideal) x0 x1 (ix1 i) = Cert.Spec.lossRow X lab i := by
  rw [val_main_v43_apply, val_main_v42_apply, val_main_cst_6_apply, val_main_v41_apply, posSum_apply, posCnt_apply,
    Ideal.mulf_def, Ideal.hostDivf_def, Ideal.ofBits_def]
  rfl

/-- A rank-1 index of extent 8192 is its coordinate. -/
def rowIdx : S8192.Idx ≃ Fin 8192 where
  toFun j := j 0
  invFun := ix1
  left_inv j := (eq_ix1 j).symm
  right_inv _ := rfl

/-- The reference's result is the mean contrastive loss of the stacked rows under the stacked labels. -/
theorem result_eq :
    val_main_v45 (F := Ideal) x0 x1 = fun _ => Cert.Spec.meanLoss X lab := by
  funext i
  rw [val_main_v45_apply, val_main_v44_apply, val_main_cst_7_apply, val_main_cst_8_apply, Ideal.hostDivf_def,
    Ideal.ofBits_def, Ideal.ofBits_def, Ideal.ofBits_zero_f32]
  unfold Cert.Spec.meanLoss
  refine congrArg (fun s => Ideal.div (0 + s) (Ideal.ofBits .f32 0x46000000#32)) ?_
  refine (Equiv.sum_comp rowIdx.symm (val_main_v43 (F := Ideal) x0 x1)).symm.trans ?_
  exact Finset.sum_congr rfl fun k _ => lossRow_apply x0 x1 k

end

end Cert.ReferenceIdeal.RefValue

end
-- ==== Proof.Assembly.lean ====
/-
  The five claims of the certificate, put together.

  Both printed kernels run and leave their arguments as they found them; the reference runs and leaves its
  arguments as it found them; the one named constant, the inverse temperature, denotes on the extended reals the
  number the table gives it; and, on the extended reals, the kernel and the reference end at the same value: the
  mean supervised contrastive loss of the 8192 stacked rows under the stacked labels. The reference's result is
  that loss by its own reading, stage by stage; the kernel's result is that loss by its run, taken here as a
  hypothesis so that this module depends on the statement of that run only.
-/
import proofs.«410188_j47519518162964_3_alg».proof.Defs
import proofs.«410188_j47519518162964_3_alg».proof.Proof.KernelFrame
import proofs.«410188_j47519518162964_3_alg».proof.Proof.KernelIdealFrame
import proofs.«410188_j47519518162964_3_alg».proof.Proof.RefValue
import proofs.«410188_j47519518162964_3_alg».proof.Proof.Spec
import proofs.«410188_j47519518162964_3_alg».proof.Proof.Gen.ReferenceIdeal.Run
import proofs.«410188_j47519518162964_3_alg».proof.Proof.Gen.ReferenceIdeal.Read
import proofs.«410188_j47519518162964_3_alg».proof.Proof.Gen.Kernel
import proofs.«410188_j47519518162964_3_alg».proof.Proof.Gen.KernelIdeal
import proofs.«410188_j47519518162964_3_alg».proof.Proof.Gen.ReferenceIdeal
import proofs.«410188_j47519518162964_3_alg».proof.Proof.Gen.Pre_finite_inputs

noncomputable section

open Idealize.ShloMosaic Idealize.ShloMosaic.TcCoe Idealize.SL.Sem

namespace Cert.Proof.Claims

/-- The kernel as printed runs and its arguments end unchanged. -/
theorem frame_k : Cert.frame_Kernel := fun m ρ _ => Cert.Kernel.GenP.frame m ρ

/-- The kernel on the extended reals runs and its arguments end unchanged. -/
theorem frame_ki : Cert.frame_KernelIdeal := fun m ρ _ => Cert.KernelIdeal.GenP.frame m ρ

/-- The reference on the extended reals runs and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the table gives the inverse temperature the value 134217728 / 13421773, one over the
    single-precision number nearest to 0.1, and the printed constant is that value on the extended reals. -/
theorem preserves : Cert.preserves_Kernel_KernelIdeal :=
  IdealRules.named_const.statement Cert.KernelIdeal.κ "inv_temp" .f32 0x41200000#32
    ((134217728 / 13421773 : ℝ) : EReal) rfl

/-- On the extended reals, from memories that agree on the arguments, the kernel and the reference end at one
    value: the mean contrastive loss of the stacked rows under the stacked labels. The kernel's side is the
    hypothesis; the reference's side is its run, whose result term is its last stage, which is that loss. -/
theorem algebraic_of
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread _ _).loc Cert.KernelIdeal.main_v11)
            = (fun _ => Cert.Spec.meanLoss
                (Cert.Spec.stackRows (m ((c.tc : Thread _ _).loc Cert.KernelIdeal.main_arg0)))
                (Cert.Spec.stackLabels (m ((c.tc : Thread _ _).loc Cert.KernelIdeal.main_arg1))))
          ∧ r.2.mem ((c.tc : Thread _ _).loc Cert.KernelIdeal.main_arg0)
            = m ((c.tc : Thread _ _).loc Cert.KernelIdeal.main_arg0)
          ∧ r.2.mem ((c.tc : Thread _ _).loc Cert.KernelIdeal.main_arg1)
            = m ((c.tc : Thread _ _).loc Cert.KernelIdeal.main_arg1))) :
    Cert.algebraic_KernelIdeal_ReferenceIdeal := by
  intro m ρ m' ρ' _ hagree
  refine ⟨fun c => (fun _ => Cert.Spec.meanLoss
      (Cert.Spec.stackRows (m ((c.tc : Thread _ _).loc Cert.KernelIdeal.main_arg0)))
      (Cert.Spec.stackLabels (m ((c.tc : Thread _ _).loc Cert.KernelIdeal.main_arg1)))), hrun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.result_eq, (hagree c).1, (hagree c).2]
  rfl

end Cert.Proof.Claims

end
-- ==== Proof.KernelHost.lean ====
/-
  What the region finds in its three operand arrays, index by index, from the program's two inputs.

  Before the region the host transposes the [1024, 8, 64] features to [8, 1024, 64] and flattens them to 8192 rows
  of 64: row r is anchor r mod 1024 seen in view r / 1024.  It lays the 1024 labels out as one row, repeats the row
  eight times and flattens: entry r is the label of anchor r mod 1024.  The flat labels are then read once as a
  column [8192, 1] and once as a row [1, 8192].  Each step is a layout operation, read at an index by naming the
  operand index with the same row-major position (a reshape), the permuted coordinates (the transpose) or the
  coordinates on the kept axes (the broadcast).
-/
import proofs.«410188_j47519518162964_3_alg».proof.Proof.KernelIdealFrame
import proofs.«410188_j47519518162964_3_alg».proof.Proof.Spec
import Idealize.ShloMosaic.Lib.Pipeline.Value
import Idealize.ShloMosaic.Lib.ValueIdx

set_option maxRecDepth 16384

noncomputable section

namespace Cert.KernelIdeal.HostValue

open Cert.KernelIdeal Cert.KernelIdeal.Gen Cert.KernelIdeal.GenP
open Idealize.ShloMosaic Idealize.ShloMosaic.TcCoe Idealize.ShloMosaic.Tactic Idealize.ShloMosaic.ValueIdx

variable (m : (ℓ : Loc nD τ sig) → Buf (Elt Ideal) ℓ)

/-! ## The windows' arrays -/

/-- The region's four windows read, in order, the label column, the stacked rows, the label row, and write the
    [8192, 128] result. -/
theorem arrRef_0 : Pipeline.arrRef spec0 0 = main_v5 := rfl
theorem arrRef_1 : Pipeline.arrRef spec0 1 = main_v1 := rfl
theorem arrRef_2 : Pipeline.arrRef spec0 2 = main_v6 := rfl
theorem arrRef_3 : Pipeline.arrRef spec0 3 = main_v7 := rfl

/-! ## The stacked rows -/

/-- The stacked rows as the host builds them: the features transposed to views-first, then flattened. -/
theorem V_v1_eq (c : Dev nD) : (V m c main_v1 : S8192x64.Idx → EReal)
    = shapeCast S8192x64 (transpose S8x1024x64 [1, 0, 2] (m ((c : Thread nD τ).loc main_arg0)) transposes_S1024x8x64_S8x1024x64_1_0_2)
        shapeCasts_S8x1024x64_S8192x64 := by
  show StableHlo.after hostOps0 (fun b => m (c, b)) (Proc.devRef .tc main_v1) = _
  after_results
  rfl

/-- Entry (r, d) of the stacked rows is entry (r mod 1024, r / 1024, d) of the features: position r · 64 + d of the
    flat array is position ((r / 1024) · 1024 + r mod 1024) · 64 + d of the views-first array, whose first two axes
    the transpose swaps. -/
theorem V_rows (c : Dev nD) (r : Fin 8192) (d : Fin 64) :
    (V m c main_v1 : S8192x64.Idx → EReal) (ValueIdx.ix2 r d) = Cert.Spec.stackRows (m ((c : Thread nD τ).loc main_arg0)) r d := by
  rw [V_v1_eq]
  have hr := r.isLt
  refine (shapeCast_apply _ _ (ix2 r d)
    (ix3 (⟨r.val / 1024, by omega⟩ : Fin 8) (⟨r.val % 1024, Nat.mod_lt _ (by norm_num)⟩ : Fin 1024) d) ?_).trans ?_
  · rw [Shape.rowMajor_val_two, Shape.rowMajor_val_three]
    show (r.val / 1024 * 1024 + r.val % 1024) * 64 + d.val = r.val * 64 + d.val
    omega
  · refine (transpose_apply _ _ _ _
      (ix3 (⟨r.val % 1024, Nat.mod_lt _ (by norm_num)⟩ : Fin 1024) (⟨r.val / 1024, by omega⟩ : Fin 8) d) ?_).trans ?_
    · intro b
      match b with
      | ⟨0, _⟩ => rfl
      | ⟨1, _⟩ => rfl
      | ⟨2, _⟩ => rfl
    · rfl

/-! ## The stacked labels -/

/-- The flat labels as the host builds them: the labels as one row, repeated down eight rows, flattened. -/
def flatLab (l : S1024.Idx → BitVec 32) : S8192.Idx → BitVec 32 :=
  shapeCast S8192 (broadcastInDim S8x1024 ![0, 1] bcast_S1x1024_S8x1024_0_1 (shapeCast S1x1024 l shapeCasts_S1024_S1x1024))
    shapeCasts_S8x1024_S8192

/-- The label column the region reads is the flat labels as [8192, 1]. -/
theorem V_v5_eq (c : Dev nD) : (V m c main_v5 : S8192x1.Idx → BitVec 32)
    = shapeCast S8192x1 (flatLab (m ((c : Thread nD τ).loc main_arg1))) shapeCasts_S8192_S8192x1 := by
  show StableHlo.after hostOps0 (fun b => m (c, b)) (Proc.devRef .tc main_v5) = _
  after_results
  rfl

/-- The label row the region reads is the flat labels as [1, 8192]. -/
theorem V_v6_eq (c : Dev nD) : (V m c main_v6 : S1x8192.Idx → BitVec 32)
    = shapeCast S1x8192 (flatLab (m ((c : Thread nD τ).loc main_arg1))) shapeCasts_S8192_S1x8192 := by
  show StableHlo.after hostOps0 (fun b => m (c, b)) (Proc.devRef .tc main_v6) = _
  after_results
  rfl

/-- Entry r of the flat labels is the label of anchor r mod 1024: position r of the flat array is entry
    (r / 1024, r mod 1024) of the eight repeated rows, each of which is the one row of labels. -/
theorem flatLab_apply (l : S1024.Idx → BitVec 32) (r : Fin 8192) :
    flatLab l (ix1 r) = Cert.Spec.stackLabels l r := by
  have hr := r.isLt
  unfold flatLab
  refine (shapeCast_apply _ _ (ix1 r)
    (ix2 (⟨r.val / 1024, by omega⟩ : Fin 8) (⟨r.val % 1024, Nat.mod_lt _ (by norm_num)⟩ : Fin 1024)) ?_).trans ?_
  · rw [Shape.rowMajor_val_one, Shape.rowMajor_val_two]
    show r.val / 1024 * 1024 + r.val % 1024 = r.val
    omega
  refine (broadcastInDim_apply _ _ _ _
    (ix2 (0 : Fin 1) (⟨r.val % 1024, Nat.mod_lt _ (by norm_num)⟩ : Fin 1024)) ?_).trans ?_
  · intro a
    match a with
    | ⟨0, _⟩ => rfl
    | ⟨1, _⟩ => rfl
  refine (shapeCast_apply _ _ _ (ix1 (⟨r.val % 1024, Nat.mod_lt _ (by norm_num)⟩ : Fin 1024)) ?_).trans ?_
  · rw [Shape.rowMajor_val_one, Shape.rowMajor_val_two]
    show r.val % 1024 = 0 * 1024 + r.val % 1024
    omega
  rfl

/-- Row r of the label column is the label of anchor r mod 1024. -/
theorem V_labq (c : Dev nD) (r : Fin 8192) :
    (V m c main_v5 : S8192x1.Idx → BitVec 32) (ValueIdx.ix2 r 0) = Cert.Spec.stackLabels (m ((c : Thread nD τ).loc main_arg1)) r := by
  rw [V_v5_eq]
  refine (shapeCast_apply _ _ (ix2 r (0 : Fin 1)) (ix1 r) ?_).trans (flatLab_apply _ r)
  rw [Shape.rowMajor_val_one, Shape.rowMajor_val_two]
  show r.val = r.val * 1 + 0
  omega

/-- Column r of the label row is the label of anchor r mod 1024. -/
theorem V_labk (c : Dev nD) (r : Fin 8192) :
    (V m c main_v6 : S1x8192.Idx → BitVec 32) (ValueIdx.ix2 0 r) = Cert.Spec.stackLabels (m ((c : Thread nD τ).loc main_arg1)) r := by
  rw [V_v6_eq]
  refine (shapeCast_apply _ _ (ix2 (0 : Fin 1) r) (ix1 r) ?_).trans (flatLab_apply _ r)
  rw [Shape.rowMajor_val_one, Shape.rowMajor_val_two]
  show r.val = 0 * 8192 + r.val
  omega

end Cert.KernelIdeal.HostValue

end
-- ==== Proof.KernelHostTail.lean ====
/-
  The lines after the region, as one function of what the region left in its [8192, 128] result.

  The host takes column 0 of the result, flattens it to 8192 entries, sums them starting from the zero word and
  divides by the word of 8192.  Read at the one index of a scalar: the quotient is the ideal division of the two
  scalars; the sum over the flattened column is zero plus the sum over the rows r of entry (r, 0) of the result
  (position r of the flat column is position r · 1 + 0 of the [8192, 1] column, which the slice takes from entry
  (0 + r, 0 + 0)); the divisor stays the word it is printed as.  So if the result's column 0 is a function L of the
  row, the program ends with (0 + Σ_r L r) / 8192 in its scalar output.
-/
import proofs.«410188_j47519518162964_3_alg».proof.Proof.KernelIdealFrame
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.HostValue

open Cert.KernelIdeal Cert.KernelIdeal.Gen Cert.KernelIdeal.GenP
open Idealize.ShloMosaic Idealize.ShloMosaic.TcCoe Idealize.ShloMosaic.Tactic Idealize.ShloMosaic.ValueIdx

variable (m : (ℓ : Loc nD τ sig) → Buf (Elt Ideal) ℓ)

/-- A sum over the indices of a vector is the sum over its one coordinate. -/
theorem sum_idx1 {M : Type*} [AddCommMonoid M] {n : Nat} (f : (⟨1, ![n]⟩ : Shape).Idx → M) :
    ∑ i, f i = ∑ r : Fin n, f (ix1 r) :=
  (Fintype.sum_equiv (⟨fun r => ix1 r, fun j => j 0, fun _ => rfl, fun j => (eq_ix1 j).symm⟩ : Fin n ≃ (⟨1, ![n]⟩ : Shape).Idx)
    (fun r => f (ix1 r)) f (fun _ => rfl)).symm

/-- The lines after the region as one function of the region's [8192, 128] result: column 0, flattened, summed from
    the zero word, divided by the word of 8192. -/
def hostTail (x : S8192x128.Idx → EReal) : S_.Idx → EReal :=
  Host.divf (F := Ideal)
    (Host.reduceAdd (F := Ideal)
      (shapeCast S8192 (extractStridedSlice S8192x1 ![0, 0] x slices_S8192x128_S8192x1_0_0) shapeCasts_S8192x1_S8192)
      (constant (F := Ideal) S_ .f32 0x00000000#32) reducesTo_S8192_S_d0 h_S_)
    (constant (F := Ideal) S_ .f32 0x46000000#32)

/-- The tail at its one index: zero plus the sum of the result's column 0 over the rows, divided by the word of 8192. -/
theorem hostTail_eq (x : S8192x128.Idx → EReal) :
    hostTail x = fun _ => Ideal.div (0 + ∑ r : Fin 8192, x (ix2 r (0 : Fin 128))) (Ideal.ofBits .f32 0x46000000#32) := by
  funext j
  unfold hostTail
  rw [hostDivf_apply, hostReduceAdd_apply, Ideal.hostReduceAdd_total _ (fun b => b.elim0), constant_apply, constant_apply,
    Ideal.ofBits_zero_f32, sum_idx1]
  congr 2
  refine Finset.sum_congr rfl fun r _ => ?_
  refine (shapeCast_apply _ _ (ix1 r) (ix2 r (0 : Fin 1)) ?_).trans ?_
  · rw [Shape.rowMajor_val_one, Shape.rowMajor_val_two]
    show r.val * 1 + 0 = r.val
    omega
  refine extractStridedSlice_apply _ _ _ _ (ix2 r (0 : Fin 128)) fun a => ?_
  match a with
  | ⟨0, _⟩ => show r.val = 0 + r.val; omega
  | ⟨1, _⟩ => rfl

/-- The scalar output is neither scoped nor a window's array: the run's post states it among the other buffers. -/
theorem v11_mem_rest : main_v11 ∈ Pipeline.restRefs sig (cfgs 0).spec :=
  Pipeline.mem_restRefs_of main_v11 (by decide) (by decide)

/-- What the program leaves in its scalar output, for any contents `out` of the region's result whose column 0 is
    `L`: the mean's numerator from the zero word over the word of 8192.  The lines after the region run from the
    region's exit contents, where the result array holds what the proof data computes. -/
theorem tail_eq (c : Dev nD) {out : S8192x128.Idx → EReal} {L : Fin 8192 → EReal}
    (hout : (GenP.dats m 0 c).arrAt 3 cfg0.N = out) (hL : ∀ r : Fin 8192, out (ValueIdx.ix2 r 0) = L r) :
    Pipeline.afterTail₀ cfgs (GenP.dats m) 0 (V0 m) [hostOps1] c main_v11
      = fun _ => Ideal.div (0 + ∑ r : Fin 8192, L r) (Ideal.ofBits .f32 0x46000000#32) := by
  have hw : Pipeline.withArrays (cfgs 0).spec c (V0 m c) (fun w => (GenP.dats m 0 c).arrAt w (cfgs 0).N)
      (Proc.devRef .tc main_v7) = out :=
    (Pipeline.withArrays_arr spec0 launch0.win.arr_inj c _ _ 3).trans hout
  unfold Pipeline.afterTail₀
  show StableHlo.after hostOps1 _ (Proc.devRef .tc main_v11) = _
  after_results
  show hostTail (Pipeline.withArrays (cfgs 0).spec c (V0 m c) (fun w => (GenP.dats m 0 c).arrAt w (cfgs 0).N)
    (Proc.devRef .tc main_v7)) = _
  rw [hw, hostTail_eq]
  exact funext fun _ => congrArg (fun s => Ideal.div (0 + s) (Ideal.ofBits .f32 0x46000000#32))
    (Finset.sum_congr rfl fun r _ => hL r)

end Cert.KernelIdeal.HostValue

end
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.KernelPayA.lean ====
/-
  The first two loops' arithmetic at one entry: the scaled inner products of a chunk, the running row maximum,
  the exponentials of the shifted products and the running sum of the negatives' exponentials.
-/
import proofs.«410188_j47519518162964_3_alg».proof.Proof.Gen.KernelIdeal.Skeleton
import proofs.«410188_j47519518162964_3_alg».proof.Proof.Spec
import proofs.«410188_j47519518162964_3_alg».proof.Proof.LibRowsCols
import proofs.«410188_j47519518162964_3_alg».proof.Proof.LibDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## Three readings the entries below use -/

/-- Rows by rows: a left operand [M, K] and a right operand [N, K], both contracted on axis 1; the result's entry
    (p, q) is the inner product of the left's row p and the right's row q. -/
theorem sum_rows_rows {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : FVec Ideal ⟨2, ![M, K]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 p k) * r (ix2 q k) := by
  rw [← Equiv.sum_comp (contrEquiv1 d K (Cert.Lib.Dot.contr_rank_one d hlc) (Cert.Lib.Dot.contr_size_one d hlc)).symm]
  refine Finset.sum_congr rfl fun k _ => ?_
  have e1 : d.lhsIdx (ix2 p q)
      ((contrEquiv1 d K (Cert.Lib.Dot.contr_rank_one d hlc) (Cert.Lib.Dot.contr_size_one d hlc)).symm k) = ix2 p k := by
    funext a; refine Fin.ext ?_
    match a with
    | ⟨0, _⟩ => exact Cert.Lib.Dot.lhsIdx_val_kept d hlb hln _ _ Nat.zero_lt_two
    | ⟨1, _⟩ => exact (d.lhsIdx_val_of_single hlc _ _).trans (contrEquiv1_symm_val d K _ _ k)
  have e2 : d.rhsIdx (ix2 p q)
      ((contrEquiv1 d K (Cert.Lib.Dot.contr_rank_one d hlc) (Cert.Lib.Dot.contr_size_one d hlc)).symm k) = ix2 q k := by
    funext a; refine Fin.ext ?_
    match a with
    | ⟨0, _⟩ => exact Cert.Lib.Dot.rhsIdx_val_kept d hlb hrb hln hrn _ _ Nat.one_lt_two
    | ⟨1, _⟩ => exact (d.rhsIdx_val_of_single hrc _ _).trans (contrEquiv1_symm_val d K _ _ k)
  rw [e1, e2]

/-- The named inverse temperature is, on the extended reals, the number the table gives it. -/
theorem inv_temp_eq :
    Named.named (F := Ideal) Cert.KernelIdeal.κ "inv_temp" (φ := .f32) 0x41200000#32 = Cert.Spec.invTemp :=
  IdealRules.named_const.ideal_named_scalar _ _ _ _ rfl

/-- A choice on "the two words differ" takes the second value exactly when they are equal. -/
theorem select_ne {α : Type} (x y : BitVec 32) (a b : α) :
    Scalar.select (IntOp.cmpi .ne x y) a b = if x = y then b else a := by
  unfold Scalar.select
  by_cases h : x = y
  · rw [if_pos h]
    exact if_neg (fun hc => (IntOp.cmpi_ne.mp hc) h)
  · rw [if_neg h]
    exact if_pos (IntOp.cmpi_ne.mpr h)

/-! ## The entries -/

/-- The running maximum starts from the word of −∞. -/
theorem pay1_apply (y : S256x1.Idx) : (k0_pay1 (F := Ideal) y : EReal) = Cert.Spec.negInf := rfl

/-- An entry of a chunk's scaled products: the inner product of query row p and chunk row j, times the inverse temperature. -/
theorem pay2_apply (v3 : Vec Ideal S256x64 .f32) (v31 : Vec Ideal S1024x64 .f32) (p : Fin 256) (j : Fin 1024) :
    (k0_pay2 (F := Ideal) v3 v31 (ix2 p j) : EReal) = (∑ d : Fin 64, (v3 (ix2 p d) : EReal) * (v31 (ix2 j d) : EReal)) * Cert.Spec.invTemp := by
  have hm : ∀ (l : FVec Ideal S256x64 .f32) (r : FVec Ideal S1024x64 .f32),
      matmul (F := Ideal) dot_S256x64_S1024x64_S256x1024_1_1_0_0_n_n (some .fp32) l r
        (constant S256x1024 .f32 0x00000000#32) (ix2 p j)
      = ∑ d : Fin 64, (l (ix2 p d) : EReal) * (r (ix2 j d) : EReal) := fun l r =>
    (Ideal.matmul_constant_zero_apply dot_S256x64_S1024x64_S256x1024_1_1_0_0_n_n (some .fp32) l r (ix2 p j)).trans
      (sum_rows_rows dot_S256x64_S1024x64_S256x1024_1_1_0_0_n_n rfl rfl rfl rfl rfl rfl l r p j)
  unfold k0_pay2
  simp only [shapeCast_self]
  refine (congrArg (· * Named.named (F := Ideal) Cert.KernelIdeal.κ "inv_temp" (φ := .f32) 0x41200000#32)
    (hm v3 v31)).trans ?_
  rw [inv_temp_eq]

/-- What is stored into the first scratch is that same array. -/
theorem pay3_eq (v3 : Vec Ideal S256x64 .f32) (v31 : Vec Ideal S1024x64 .f32) :
    k0_pay3 (F := Ideal) v3 v31 = k0_pay2 (F := Ideal) v3 v31 := by
  unfold k0_pay3
  exact shapeCast_self _ _

/-- The running maximum after a chunk: the larger of what was carried and the chunk's row maximum (itself from −∞). -/
theorem pay4_apply (v3 : Vec Ideal S256x64 .f32) (acc : FVec Ideal S256x1 .f32) (v31 : Vec Ideal S1024x64 .f32) (p : Fin 256) :
    (k0_pay4 (F := Ideal) v3 acc v31 (ix2 p 0) : EReal)
      = max (acc (ix2 p 0) : EReal) ((Finset.univ : Finset (Fin 1024)).fold max Cert.Spec.negInf (fun j => (k0_pay2 (F := Ideal) v3 v31 (ix2 p j) : EReal))) := by
  unfold k0_pay4
  refine congrArg (max (acc (ix2 p 0) : EReal)) ?_
  refine (RowsCols.shapeCast_a_a1_apply _ shapeCasts_S256_S256x1 p 0).trans ?_
  exact RowsCols.laneMax_apply (k0_pay2 (F := Ideal) v3 v31) 0xFF800000#32 reduces_S256x1024_S256 (.inl rfl) rfl p

/-- The running sums start from zero. -/
theorem pay5_apply (y : S256x1.Idx) : (k0_pay5 (F := Ideal) y : EReal) = 0 := by
  unfold k0_pay5
  exact Ideal.ofBits_zero_f32

/-- The exponential of a cached product less the row's maximum. -/
theorem pay6_apply (v7 : FVec Ideal S256x1 .f32) (v31 : Vec Ideal S256x1024 .f32) (p : Fin 256) (j : Fin 1024) :
    (k0_pay6 (F := Ideal) v7 v31 (ix2 p j) : EReal) = Ideal.exp ((v31 (ix2 p j) : EReal) - (v7 (ix2 p 0) : EReal)) := by
  unfold k0_pay6
  show Ideal.exp ((v31 (ix2 p j) : EReal) - broadcastTo S256x1024 v7 broadcasts_S256x1_S256x1024 (ix2 p j)) = _
  rw [RowsCols.broadcastTo_a1_ab_apply v7 broadcasts_S256x1_S256x1024 p j]

/-- What is stored into the second scratch is that same array. -/
theorem pay7_eq (v7 : FVec Ideal S256x1 .f32) (v31 : Vec Ideal S256x1024 .f32) :
    k0_pay7 (F := Ideal) v7 v31 = k0_pay6 (F := Ideal) v7 v31 := by
  unfold k0_pay7
  exact shapeCast_self _ _

/-- The negatives' running sum after a chunk: what was carried plus the chunk's exponentials over the columns of another label. -/
theorem pay8_apply (v7 acc : FVec Ideal S256x1 .f32) (v31 : Vec Ideal S256x1024 .f32) (v33 : Vec Ideal S1x1024 .i32) (v42 : Vec Ideal S256x1 .i32) (p : Fin 256) :
    (k0_pay8 (F := Ideal) v7 acc v31 v33 v42 (ix2 p 0) : EReal)
      = (acc (ix2 p 0) : EReal) + ∑ j : Fin 1024, (if (v42 (ix2 p 0) : BitVec 32) = (v33 (ix2 0 j) : BitVec 32) then (0 : EReal) else (k0_pay6 (F := Ideal) v7 v31 (ix2 p j) : EReal)) := by
  unfold k0_pay8
  refine congrArg ((acc (ix2 p 0) : EReal) + ·) ?_
  refine (RowsCols.shapeCast_a_a1_apply _ shapeCasts_S256_S256x1 p 0).trans ?_
  refine (RowsCols.laneSum_apply _ 0x00000000#32 reduces_S256x1024_S256 (.inl rfl) rfl p).trans ?_
  refine Finset.sum_congr rfl fun j _ => ?_
  simp only [shapeCast_self]
  show Scalar.select
      (IntOp.cmpi .ne (broadcastTo S256x1024 v42 broadcasts_S256x1_S256x1024 (ix2 p j))
        (broadcastTo S256x1024 v33 broadcasts_S1x1024_S256x1024 (ix2 p j)))
      (k0_pay6 (F := Ideal) v7 v31 (ix2 p j) : EReal) (Ideal.ofBits .f32 0x00000000#32) = _
  rw [RowsCols.broadcastTo_a1_ab_apply v42 broadcasts_S256x1_S256x1024 p j,
    broadcastTo_1b_ab_apply v33 broadcasts_S1x1024_S256x1024 p j, select_ne, Ideal.ofBits_zero_f32]

end Cert.KernelIdeal.Pay

end
-- ==== Proof.Chunks.lean ====
/-
  Reductions over 8192 columns taken in 8 consecutive chunks of 1024.

  A sum, or a maximum, over all 8192 columns equals the value of an accumulator that starts from a given value and
  takes in the chunks' own sums, or maxima, one chunk after the other.  Only commutativity and associativity of
  addition and of the maximum are used: no term needs to be finite.  The last part shows that every row of the
  stacked labels has at least one positive, namely the same anchor seen in another view.
-/
import Mathlib.Algebra.BigOperators.Fin
import Mathlib.Algebra.Order.BigOperators.Group.Finset
import Mathlib.Data.Fintype.BigOperators
import Mathlib.Data.Finset.Fold
import Mathlib.Data.EReal.Basic
import Idealize.ShloMosaic.PureOps.Ideal
import proofs.«410188_j47519518162964_3_alg».proof.Proof.Spec

noncomputable section

open scoped BigOperators

namespace Cert.Chunks

open Idealize.ShloMosaic

/-- column 1024·k + j of chunk k -/
def col (k : Fin 8) (j : Fin 1024) : Fin 8192 :=
  ⟨1024 * k.val + j.val, by have := k.isLt; have := j.isLt; omega⟩

@[simp] theorem col_val (k : Fin 8) (j : Fin 1024) : (col k j).val = 1024 * k.val + j.val := rfl

/-- Every column lies in a chunk: column i is column i mod 1024 of chunk i / 1024. -/
theorem col_surj (i : Fin 8192) : ∃ k j, col k j = i :=
  ⟨⟨i.val / 1024, by have := i.isLt; omega⟩, ⟨i.val % 1024, Nat.mod_lt _ (by norm_num)⟩,
    Fin.ext (by simp only [col_val]; omega)⟩

/-- A column lies in one chunk only, at one place. -/
theorem col_inj : Function.Injective (fun p : Fin 8 × Fin 1024 => col p.1 p.2) := by
  rintro ⟨k, j⟩ ⟨k', j'⟩ h
  have hv : 1024 * k.val + j.val = 1024 * k'.val + j'.val := congrArg Fin.val h
  have hj := j.isLt
  have hj' := j'.isLt
  exact Prod.ext (Fin.ext (by show k.val = k'.val; omega)) (Fin.ext (by show j.val = j'.val; omega))

/-- The pairs (chunk, place) and the columns correspond one to one. -/
theorem col_bij : Function.Bijective (fun p : Fin 8 × Fin 1024 => col p.1 p.2) :=
  ⟨col_inj, fun i => by obtain ⟨k, j, h⟩ := col_surj i; exact ⟨(k, j), h⟩⟩

/-! ## The running sum -/

/-- the running sum before chunk k, from z -/
def accSum (g : Fin 8192 → EReal) (z : EReal) : ℕ → EReal
  | 0 => z
  | k + 1 => accSum g z k + (if h : k < 8 then ∑ j : Fin 1024, g (col ⟨k, h⟩ j) else 0)

theorem accSum_succ (g : Fin 8192 → EReal) (z : EReal) (k : Fin 8) :
    accSum g z (k.val + 1) = accSum g z k.val + ∑ j : Fin 1024, g (col k j) := by
  rw [accSum, dif_pos k.isLt]

/-- The running sum before chunk n is the start plus the sums of the chunks before n. -/
theorem accSum_eq_range (g : Fin 8192 → EReal) (z : EReal) (n : ℕ) :
    accSum g z n = z + ∑ k ∈ Finset.range n,
      (if h : k < 8 then ∑ j : Fin 1024, g (col ⟨k, h⟩ j) else 0) := by
  induction n with
  | zero => simp [accSum]
  | succ n ih => rw [accSum, ih, Finset.sum_range_succ, add_assoc]

/-- The sum over all columns is the sum over the chunks of the chunks' sums. -/
theorem sum_chunks (g : Fin 8192 → EReal) :
    ∑ i : Fin 8192, g i = ∑ k : Fin 8, ∑ j : Fin 1024, g (col k j) := by
  rw [← Fintype.sum_prod_type (f := fun p : Fin 8 × Fin 1024 => g (col p.1 p.2))]
  exact (Fintype.sum_bijective _ col_bij _ _ (fun _ => rfl)).symm

theorem accSum_eight (g : Fin 8192 → EReal) (z : EReal) :
    accSum g z 8 = z + ∑ i : Fin 8192, g i := by
  rw [accSum_eq_range, sum_chunks,
    ← Fin.sum_univ_eq_sum_range
      (fun k => if h : k < 8 then ∑ j : Fin 1024, g (col ⟨k, h⟩ j) else 0) 8]
  exact congrArg (z + ·) (Finset.sum_congr rfl (fun k _ => dif_pos k.isLt))

/-! ## The running maximum -/

/-- the running maximum before chunk k, from b; each chunk's own maximum is itself folded from b -/
def accMax (g : Fin 8192 → EReal) (b : EReal) : ℕ → EReal
  | 0 => b
  | k + 1 => max (accMax g b k)
      (if h : k < 8 then (Finset.univ : Finset (Fin 1024)).fold max b (fun j => g (col ⟨k, h⟩ j)) else b)

theorem accMax_succ (g : Fin 8192 → EReal) (b : EReal) (k : Fin 8) :
    accMax g b (k.val + 1) = max (accMax g b k.val)
      ((Finset.univ : Finset (Fin 1024)).fold max b (fun j => g (col k j))) := by
  rw [accMax, dif_pos k.isLt]

/-- The running maximum before chunk n is below c exactly when the start is, and every column of a chunk
before n is. -/
theorem accMax_le_iff (g : Fin 8192 → EReal) (b c : EReal) (n : ℕ) :
    accMax g b n ≤ c ↔ b ≤ c ∧ ∀ (k : Fin 8) (j : Fin 1024), k.val < n → g (col k j) ≤ c := by
  induction n with
  | zero =>
    simp only [accMax]
    exact ⟨fun h => ⟨h, fun k j hk => absurd hk (Nat.not_lt_zero _)⟩, fun h => h.1⟩
  | succ n ih =>
    rw [accMax, max_le_iff, ih]
    by_cases hn : n < 8
    · rw [dif_pos hn, Finset.fold_max_le]
      constructor
      · rintro ⟨⟨hb, hlt⟩, -, hat⟩
        refine ⟨hb, fun k j hk => ?_⟩
        rcases Nat.lt_succ_iff_lt_or_eq.mp hk with hk' | hk'
        · exact hlt k j hk'
        · have hkn : k = ⟨n, hn⟩ := Fin.ext hk'
          rw [hkn]
          exact hat j (Finset.mem_univ j)
      · rintro ⟨hb, hall⟩
        exact ⟨⟨hb, fun k j hk => hall k j (Nat.lt_succ_of_lt hk)⟩, hb,
          fun j _ => hall ⟨n, hn⟩ j (Nat.lt_succ_self n)⟩
    · rw [dif_neg hn]
      constructor
      · rintro ⟨⟨hb, hlt⟩, -⟩
        refine ⟨hb, fun k j hk => hlt k j ?_⟩
        have := k.isLt
        omega
      · rintro ⟨hb, hall⟩
        exact ⟨⟨hb, fun k j hk => hall k j (Nat.lt_succ_of_lt hk)⟩, hb⟩

theorem accMax_eight (g : Fin 8192 → EReal) (b : EReal) :
    accMax g b 8 = (Finset.univ : Finset (Fin 8192)).fold max b g := by
  refine eq_of_forall_ge_iff (fun c => ?_)
  rw [accMax_le_iff, Finset.fold_max_le]
  constructor
  · rintro ⟨hb, hall⟩
    refine ⟨hb, fun i _ => ?_⟩
    obtain ⟨k, j, rfl⟩ := col_surj i
    exact hall k j k.isLt
  · rintro ⟨hb, hall⟩
    exact ⟨hb, fun k j _ => hall (col k j) (Finset.mem_univ _)⟩

/-! ## Every row has a positive -/

/-- every row of the stacked labels has a positive: the same anchor in another view -/
theorem posCnt_pos (labels : (⟨1, ![1024]⟩ : Shape).Idx → BitVec 32) (i : Fin 8192) :
    (0 : EReal) < Cert.Spec.posCnt (Cert.Spec.stackLabels labels) i := by
  have hi := i.isLt
  -- the row 1024 further on, wrapping round: the same anchor, another view
  let j0 : Fin 8192 := ⟨(i.val + 1024) % 8192, Nat.mod_lt _ (by norm_num)⟩
  have hpos : Cert.Spec.isPos (Cert.Spec.stackLabels labels) i j0 := by
    refine ⟨?_, ?_⟩
    · show labels _ = labels _
      refine congrArg labels (congrArg ValueIdx.ix1 (Fin.ext ?_))
      show (i.val + 1024) % 8192 % 1024 = i.val % 1024
      omega
    · intro h
      have hv : i.val = (i.val + 1024) % 8192 := congrArg Fin.val h
      omega
  -- that row's term is 1, every term is at least 0
  have h1 : (1 : EReal) ≤ Cert.Spec.posCnt (Cert.Spec.stackLabels labels) i :=
    calc (1 : EReal)
        = (fun j : Fin 8192 =>
            if Cert.Spec.isPos (Cert.Spec.stackLabels labels) i j then (1 : EReal) else 0) j0 :=
          (if_pos hpos).symm
      _ ≤ ∑ j : Fin 8192,
            (fun j : Fin 8192 =>
              if Cert.Spec.isPos (Cert.Spec.stackLabels labels) i j then (1 : EReal) else 0) j :=
          Finset.single_le_sum
            (fun j _ => by
              show (0 : EReal) ≤ if Cert.Spec.isPos (Cert.Spec.stackLabels labels) i j then 1 else 0
              split_ifs
              · exact zero_le_one
              · exact le_rfl)
            (Finset.mem_univ j0)
  exact lt_of_lt_of_le zero_lt_one h1

end Cert.Chunks

end
-- ==== Proof.KernelLoop1.lean ====
/-
  The first loop of a tile's body: the scaled similarities of the tile's 256 rows against all 8192 rows, chunk by
  chunk of 1024 columns — each chunk stored into the first scratch buffer, its row maxima folded into the carried
  maximum.  After the eight chunks the carried value is each row's largest scaled similarity and the scratch
  buffer, read at (p, j), is the scaled similarity of the tile's row p and row j.
-/
import proofs.«410188_j47519518162964_3_alg».proof.Proof.KernelIdealFrame
import proofs.«410188_j47519518162964_3_alg».proof.Proof.KernelPayA
import proofs.«410188_j47519518162964_3_alg».proof.Proof.Chunks

set_option maxRecDepth 16384

noncomputable section

open scoped BigOperators

namespace Cert.KernelIdeal.Rows

open Cert.KernelIdeal Cert.KernelIdeal.Gen Cert.KernelIdeal.GenP Cert.KernelIdeal.Pay Cert.Chunks
open Idealize.ShloMosaic Idealize.ShloMosaic.ValueIdx Idealize.SL.Sem

/-! ## Loads through unit-stride rectangles of rank two -/

/-- A load through a unit-stride rectangle at offsets (o0, o1), read at (p, q), reads the view at (o0 + p, o1 + q). -/
theorem readAt_unit2 {sig : RefSig} {κ : Kind} {sp : Space} {e : EltTy} {Val : EltTy → Type} {A B a b : ℕ}
    (v : View sig κ sp ⟨2, ![A, B]⟩ e) (f : v.ty.Contents Val) (off : Fin 2 → ℕ)
    (inb : ∀ c, off c + (![a, b] : Fin 2 → ℕ) c ≤ (⟨2, ![A, B]⟩ : Shape).size c) (o0 o1 : ℕ) (hoff : off = ![o0, o1])
    (p : Fin a) (q : Fin b) (h0 : o0 + p.val < A) (h1 : o1 + q.val < B) :
    v.readAt Val (Rect.unit (s := ⟨2, ![A, B]⟩) off ![a, b] inb).toLoadRect f (ix2 p q)
      = v.read Val f (ix2 ⟨o0 + p.val, h0⟩ ⟨o1 + q.val, h1⟩) := by
  subst hoff
  rw [View.readAt_apply]
  congr 1
  funext c
  apply Fin.ext
  match c with
  | ⟨0, _⟩ => show o0 + 1 * p.val = o0 + p.val; omega
  | ⟨1, _⟩ => show o1 + 1 * q.val = o1 + q.val; omega

/-- The global row of local row p of tile i. -/
def row (i : grid0.Coords) (p : Fin 256) : Fin 8192 :=
  ⟨256 * (i 0).val + p.val, by have h : (i 0).val < 32 := (i 0).isLt; have := p.isLt; omega⟩

@[simp] theorem row_val (i : grid0.Coords) (p : Fin 256) : (row i p).val = 256 * (i 0).val + p.val := rfl

theorem trips1 : Scf.trips k0_t1_loop.lb k0_t1_loop.ub k0_t1_loop.st = 8 := by decide
theorem trips2 : Scf.trips k0_t2_loop.lb k0_t2_loop.ub k0_t2_loop.st = 8 := by decide
theorem trips3 : Scf.trips k0_t3_loop.lb k0_t3_loop.ub k0_t3_loop.st = 8 := by decide

/-! ## The first loop -/

section Loop1

variable (c : Dev nD) (i : grid0.Coords) (arg1 : Memref sig .tc .vmem S256x1 .i32) (harg1 : arg1.IsWhole) (arg2 : Memref sig .tc .vmem S8192x64 .f32) (harg2 : arg2.IsWhole) (arg3 : Memref sig .tc .vmem S1x8192 .i32) (harg3 : arg3.IsWhole) (arg4 : Memref sig .tc .vmem S256x128 .f32) (harg4 : arg4.IsWhole) (arg5 : Memref sig .tc .vmem S256x8192 .f32) (harg5 : arg5.IsWhole) (arg6 : Memref sig .tc .vmem S256x8192 .f32) (harg6 : arg6.IsWhole) (x1 : Vec Ideal S8192x64 .f32)

/-- The rows of the resident feature block. -/
abbrev rowsX (x1 : Vec Ideal S8192x64 .f32) : Fin 8192 → Fin 64 → EReal := Cert.Spec.rowsOf x1

/-- The scaled similarity of the tile's row a and row b, by raw coordinates (zero outside the block). -/
def logitAt (i : grid0.Coords) (x1 : Vec Ideal S8192x64 .f32) (a b : ℕ) : EReal :=
  if h : a < 256 ∧ b < 8192 then Cert.Spec.logit (rowsX x1) (row i ⟨a, h.1⟩) ⟨b, h.2⟩ else 0

theorem logitAt_eq (i : grid0.Coords) (x1 : Vec Ideal S8192x64 .f32) (p : Fin 256) (j : Fin 8192) (a b : ℕ) (ha : a = p.val) (hb : b = j.val) :
    logitAt i x1 a b = Cert.Spec.logit (rowsX x1) (row i p) j := by
  subst ha hb
  unfold logitAt
  rw [dif_pos ⟨p.isLt, j.isLt⟩]

/-- The tile's own rows, as the body loads them. -/
abbrev qTile : Vec Ideal S256x64 .f32 :=
  View.readAt (Elt Ideal) arg2.view (Rect.unit (s := S8192x64) (k0_off1 i) S256x64.size (k0_off1_inb i)).toLoadRect (harg2.unread x1)

/-- Chunk k's rows, as a trip loads them. -/
abbrev kChunk (k : Fin k0_t1_loop.trips) : Vec Ideal S1024x64 .f32 :=
  View.readAt (Elt Ideal) arg2.view (Rect.unit (s := S8192x64) (k0_off2 k) S1024x64.size (k0_off2_inb k)).toLoadRect (harg2.unread x1)

theorem qTile_apply (p : Fin 256) (d : Fin 64) :
    (qTile i arg2 harg2 x1 (ix2 p d) : EReal) = rowsX x1 (row i p) d := by
  unfold qTile
  refine (readAt_unit2 (Val := Elt Ideal) arg2.view (harg2.unread x1) (k0_off1 i) (k0_off1_inb i) (256 * (i 0).val) 0 (k0_off1_eq i) p d
    (by have h : (i 0).val < 32 := (i 0).isLt; have := p.isLt; omega) (by have := d.isLt; omega)).trans ?_
  rw [harg2.read_unread]
  unfold rowsX Cert.Spec.rowsOf
  congr 1
  funext a
  apply Fin.ext
  match a with
  | ⟨0, _⟩ => rfl
  | ⟨1, _⟩ => show 0 + d.val = d.val; omega

theorem kChunk_apply (k : Fin k0_t1_loop.trips) (hk : k.val < 8) (j : Fin 1024) (d : Fin 64) :
    (kChunk arg2 harg2 x1 k (ix2 j d) : EReal) = rowsX x1 (col ⟨k.val, hk⟩ j) d := by
  unfold kChunk
  refine (readAt_unit2 (Val := Elt Ideal) arg2.view (harg2.unread x1) (k0_off2 k) (k0_off2_inb k) (1024 * k.val) 0 (k0_off2_eq k) j d
    (by have := j.isLt; omega) (by have := d.isLt; omega)).trans ?_
  rw [harg2.read_unread]
  unfold rowsX Cert.Spec.rowsOf
  congr 1
  funext a
  apply Fin.ext
  match a with
  | ⟨0, _⟩ => rfl
  | ⟨1, _⟩ => show 0 + d.val = d.val; omega

/-- A chunk's payload entry is the scaled similarity of the tile's row and the chunk's column. -/
theorem chunk_logit (k : Fin k0_t1_loop.trips) (hk : k.val < 8) (p : Fin 256) (j : Fin 1024) :
    (k0_pay2 (F := Ideal) (qTile i arg2 harg2 x1) (kChunk arg2 harg2 x1 k) (ix2 p j) : EReal)
      = Cert.Spec.logit (rowsX x1) (row i p) (col ⟨k.val, hk⟩ j) := by
  rw [pay2_apply]
  unfold Cert.Spec.logit Cert.Spec.sim
  congr 1
  refine Finset.sum_congr rfl fun d _ => ?_
  rw [qTile_apply, kChunk_apply (hk := hk)]

end Loop1

/-! ## The first loop's state, trip by trip -/

section Loop1Inv

variable (c : Dev nD) (i : grid0.Coords) (arg1 : Memref sig .tc .vmem S256x1 .i32) (harg1 : arg1.IsWhole) (arg2 : Memref sig .tc .vmem S8192x64 .f32) (harg2 : arg2.IsWhole) (arg3 : Memref sig .tc .vmem S1x8192 .i32) (harg3 : arg3.IsWhole) (arg4 : Memref sig .tc .vmem S256x128 .f32) (harg4 : arg4.IsWhole) (arg5 : Memref sig .tc .vmem S256x8192 .f32) (harg5 : arg5.IsWhole) (arg6 : Memref sig .tc .vmem S256x8192 .f32) (harg6 : arg6.IsWhole) (x1 : Vec Ideal S8192x64 .f32)

theorem ltrips1 : k0_t1_loop.trips = 8 := by decide
theorem ltrips2 : k0_t2_loop.trips = 8 := by decide
theorem ltrips3 : k0_t3_loop.trips = 8 := by decide

/-- The first loop's state before trip n. -/
abbrev st1 (n : ℕ) :=
  st_k0_t1 (F := Ideal) Variants.none c none i arg1 harg1 arg2 harg2 arg3 harg3 arg4 harg4 arg5 harg5 arg6 harg6 (qTile i arg2 harg2 x1) (harg2.unread x1) k0_pay1 n

/-- A trip of the first loop yields the running maximum's update … -/
theorem tripR1_eq (k : Fin k0_t1_loop.trips) (acc : FVec Ideal S256x1 .f32) :
    tripR_k0_t1 (F := Ideal) Variants.none c none i arg1 harg1 arg2 harg2 arg3 harg3 arg4 harg4 arg5 harg5 arg6 harg6 (qTile i arg2 harg2 x1) (harg2.unread x1) k acc
      = k0_pay4 (F := Ideal) (qTile i arg2 harg2 x1) acc (kChunk arg2 harg2 x1 k) := by
  unfold tripR_k0_t1
  unfold trip_k0_t1
  rfl

/-- … and stores the chunk's products into the first scratch at the chunk's columns. -/
theorem tripL1_eq (k : Fin k0_t1_loop.trips) (acc : FVec Ideal S256x1 .f32) :
    tripL_k0_t1 (F := Ideal) Variants.none c none i arg1 harg1 arg2 harg2 arg3 harg3 arg4 harg4 arg5 harg5 arg6 harg6 (qTile i arg2 harg2 x1) (harg2.unread x1) k acc
      = [⟨Rect.unit (s := S256x8192) (k0_off3 k) S256x1024.size (k0_off3_inb k), k0_pay3 (F := Ideal) (qTile i arg2 harg2 x1) (kChunk arg2 harg2 x1 k)⟩] := by
  unfold tripL_k0_t1
  unfold trip_k0_t1
  rfl

/-- Before trip n the carried value is the running maximum over the first n chunks, and every piece stored so far is
    a block of the one function "scaled similarity of the tile's row and the column". -/
theorem loop1_inv (n : ℕ) (hn : n ≤ 8) :
    (∀ p : Fin 256, ((st1 c i arg1 harg1 arg2 harg2 arg3 harg3 arg4 harg4 arg5 harg5 arg6 harg6 x1 n).1 (ix2 p 0) : EReal)
        = accMax (fun j => Cert.Spec.logit (rowsX x1) (row i p) j) Cert.Spec.negInf n)
    ∧ (∀ pc ∈ (st1 c i arg1 harg1 arg2 harg2 arg3 harg3 arg4 harg4 arg5 harg5 arg6 harg6 x1 n).2, ∀ y : pc.1.shape.Idx,
        (pc.2 y : EReal) = logitAt i x1 (pc.1.emb y 0).val (pc.1.emb y 1).val) := by
  induction n with
  | zero =>
    refine ⟨fun p => ?_, fun pc hpc => absurd hpc List.not_mem_nil⟩
    show (k0_pay1 (F := Ideal) (ix2 p 0) : EReal) = _
    rw [pay1_apply]; rfl
  | succ n ih =>
    have hn' : n < 8 := by omega
    obtain ⟨ihA, ihB⟩ := ih (by omega)
    have hk : n < k0_t1_loop.trips := by rw [ltrips1]; exact hn'
    have e := st_k0_t1_succ (F := Ideal) Variants.none c none i arg1 harg1 arg2 harg2 arg3 harg3 arg4 harg4 arg5 harg5 arg6 harg6 (qTile i arg2 harg2 x1) (harg2.unread x1) k0_pay1 ⟨n, hk⟩
    refine ⟨fun p => ?_, fun pc hpc y => ?_⟩
    · show ((st_k0_t1 (F := Ideal) Variants.none c none i arg1 harg1 arg2 harg2 arg3 harg3 arg4 harg4 arg5 harg5 arg6 harg6 (qTile i arg2 harg2 x1) (harg2.unread x1) k0_pay1 (n + 1)).1 (ix2 p 0) : EReal) = _
      rw [e, tripR1_eq]
      dsimp only
      rw [pay4_apply, accMax_succ _ _ ⟨n, hn'⟩]
      congr 1
      · exact ihA p
      · congr 1
        funext j
        exact chunk_logit i arg2 harg2 x1 ⟨n, hk⟩ hn' p j
    · have hpc' : pc ∈ (st_k0_t1 (F := Ideal) Variants.none c none i arg1 harg1 arg2 harg2 arg3 harg3 arg4 harg4 arg5 harg5 arg6 harg6 (qTile i arg2 harg2 x1) (harg2.unread x1) k0_pay1 (n + 1)).2 := hpc
      rw [e, tripL1_eq] at hpc'
      dsimp only at hpc'
      rcases List.mem_append.mp hpc' with h | h
      · obtain rfl := List.mem_singleton.mp h
        obtain ⟨p, j, rfl⟩ : ∃ (p : Fin 256) (j : Fin 1024), y = ix2 p j := ⟨y 0, y 1, eq_ix2 y⟩
        show (k0_pay3 (F := Ideal) (qTile i arg2 harg2 x1) (kChunk arg2 harg2 x1 ⟨n, hk⟩) (ix2 p j) : EReal) = _
        rw [pay3_eq, chunk_logit i arg2 harg2 x1 ⟨n, hk⟩ hn' p j]
        refine (logitAt_eq i x1 p (col ⟨n, hn'⟩ j) _ _ ?_ ?_).symm
        · show (k0_off3 ⟨n, hk⟩) 0 + 1 * p.val = p.val
          rw [k0_off3_eq]; show 0 + 1 * p.val = p.val; omega
        · show (k0_off3 ⟨n, hk⟩) 1 + 1 * j.val = 1024 * n + j.val
          rw [k0_off3_eq]; show 1024 * n + 1 * j.val = 1024 * n + j.val; omega
      · exact ihB pc h y

end Loop1Inv

end Cert.KernelIdeal.Rows

end
-- ==== Proof.KernelPayB.lean ====
/-
  The third loop's arithmetic and the closing step at one entry: the positives' mask, the running sum of the
  log-probabilities over the positives, their running count, and the row's loss from the two.
-/
import proofs.«410188_j47519518162964_3_alg».proof.Proof.Gen.KernelIdeal.Skeleton
import proofs.«410188_j47519518162964_3_alg».proof.Proof.Spec
import proofs.«410188_j47519518162964_3_alg».proof.Proof.LibRowsCols
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The running sums start from zero. -/
theorem pay9_apply (y : S256x1.Idx) : (k0_pay9 (F := Ideal) y : EReal) = 0 := by
  unfold k0_pay9
  exact Ideal.ofBits_zero_f32
theorem pay10_apply (y : S256x1.Idx) : (k0_pay10 (F := Ideal) y : EReal) = 0 := by
  unfold k0_pay10
  exact Ideal.ofBits_zero_f32

/-- Column j of chunk k is a positive of row p of tile i: the same label, and not the same global row
    (row 256·i + p against column 1024·k + j, as 32-bit words of numbers below 8192). -/
def posCond (i : grid0.Coords) (k : Fin k0_t3_loop.trips) (v35 : Vec Ideal S1x1024 .i32) (v40 : Vec Ideal S256x1 .i32) (p : Fin 256) (j : Fin 1024) : Prop :=
  (v35 (ix2 0 j) : BitVec 32) = (v40 (ix2 p 0) : BitVec 32) ∧ 256 * (i 0).val + p.val ≠ 1024 * k.val + j.val

instance (i : grid0.Coords) (k : Fin k0_t3_loop.trips) (v35 : Vec Ideal S1x1024 .i32) (v40 : Vec Ideal S256x1 .i32) (p : Fin 256) (j : Fin 1024) :
    Decidable (posCond i k v35 v40 p j) := by unfold posCond; infer_instance

/-- The row number of tile i's row p, as a word: the tile's first row 256·i plus p; no wrap below 8192. -/
theorem rowWord_toNat (i : grid0.Coords) (p : Fin 256) :
    (IntOp.addi (BitVec.ofNat 32 p.val) (Scalar.muli (BitVec.ofNat 32 (i 0).val) 256#32)).toNat = 256 * (i 0).val + p.val := by
  have hi : (i 0).val < 32 := (i 0).isLt
  have hp := p.isLt
  show (BitVec.ofNat 32 p.val + BitVec.ofNat 32 (i 0).val * 256#32).toNat = _
  rw [BitVec.toNat_add, BitVec.toNat_mul, BitVec.toNat_ofNat, BitVec.toNat_ofNat, BitVec.toNat_ofNat]
  omega

/-- The column number of chunk k's column j, as a word: the chunk's first column 1024·k plus j; no wrap below 8192. -/
theorem colWord_toNat (k : Fin k0_t3_loop.trips) (j : Fin 1024) :
    (IntOp.addi (BitVec.ofNat 32 j.val) (Scalar.muli (Scf.iv 0#32 1#32 k) 1024#32)).toNat = 1024 * k.val + j.val := by
  have hk : k.val < 8 := lt_of_lt_of_le k.isLt k0_t3_abs.2.1
  have hj := j.isLt
  show (BitVec.ofNat 32 j.val + (0#32 + BitVec.ofNat 32 k.val * 1#32) * 1024#32).toNat = _
  rw [BitVec.toNat_add, BitVec.toNat_mul, BitVec.toNat_add, BitVec.toNat_mul, BitVec.toNat_ofNat, BitVec.toNat_ofNat, BitVec.toNat_ofNat, BitVec.toNat_ofNat, BitVec.toNat_ofNat]
  omega

/-- Two one-bit tests joined: words equal, and two other words unequal. -/
theorem eqAndNe_word (A B C D : BitVec 32) (P : Prop) [Decidable P] (h : P ↔ (A = B ∧ C ≠ D)) :
    IntOp.andi (IntOp.cmpi .eq A B) (IntOp.cmpi .ne C D) = if P then 1#1 else 0#1 := by
  show BitVec.ofBool (A == B) &&& BitVec.ofBool (C != D) = _
  by_cases hAB : A = B
  · by_cases hCD : C = D
    · rw [if_neg (fun hp => (h.mp hp).2 hCD), show (C != D) = false from bne_eq_false_iff_eq.mpr hCD]
      rcases (A == B) <;> rfl
    · rw [if_pos (h.mpr ⟨hAB, hCD⟩), show (C != D) = true from bne_iff_ne.mpr hCD,
        show (A == B) = true from beq_iff_eq.mpr hAB]
      rfl
  · rw [if_neg (fun hp => hAB (h.mp hp).1), show (A == B) = false from beq_eq_false_iff_ne.mpr hAB]
    rcases (C != D) <;> rfl

/-- The mask bit is that condition. -/
theorem pay11_apply (i : grid0.Coords) (k : Fin k0_t3_loop.trips) (v35 : Vec Ideal S1x1024 .i32) (v40 : Vec Ideal S256x1 .i32) (p : Fin 256) (j : Fin 1024) :
    (k0_pay11 (F := Ideal) i k v35 v40 (ix2 p j) : BitVec 1) = if posCond i k v35 v40 p j then 1#1 else 0#1 := by
  have eA : broadcastTo S256x1024 (shapeCast S1x1024 v35 shapeCasts_S1x1024_S1x1024) broadcasts_S1x1024_S256x1024 (ix2 p j)
      = (v35 (ix2 0 j) : BitVec 32) := by
    rw [shapeCast_self]
    exact broadcastTo_1b_ab_apply v35 broadcasts_S1x1024_S256x1024 p j
  have eB : broadcastTo S256x1024 (shapeCast S256x1 v40 shapeCasts_S256x1_S256x1) broadcasts_S256x1_S256x1024 (ix2 p j)
      = (v40 (ix2 p 0) : BitVec 32) := by
    rw [shapeCast_self]
    exact RowsCols.broadcastTo_a1_ab_apply v40 broadcasts_S256x1_S256x1024 p j
  have eC : broadcastTo S256x1024 (addi (iota .tc S256x1 32 [0] iota_S256x1_d0_w32)
        (broadcast S256x1 (Scalar.muli (BitVec.ofNat 32 (i 0).val) 256#32))) broadcasts_S256x1_S256x1024 (ix2 p j)
      = IntOp.addi (BitVec.ofNat 32 p.val) (Scalar.muli (BitVec.ofNat 32 (i 0).val) 256#32) := by
    refine (RowsCols.broadcastTo_a1_ab_apply _ broadcasts_S256x1_S256x1024 p j).trans ?_
    show IntOp.addi (iota .tc S256x1 32 [0] iota_S256x1_d0_w32 (ix2 p 0)) _ = _
    rw [iota_single_apply]
    rfl
  have eD : broadcastTo S256x1024 (addi (iota .tc S1x1024 32 [1] iota_S1x1024_d1_w32)
        (broadcast S1x1024 (Scalar.muli (Scf.iv 0#32 1#32 k) 1024#32))) broadcasts_S1x1024_S256x1024 (ix2 p j)
      = IntOp.addi (BitVec.ofNat 32 j.val) (Scalar.muli (Scf.iv 0#32 1#32 k) 1024#32) := by
    refine (broadcastTo_1b_ab_apply _ broadcasts_S1x1024_S256x1024 p j).trans ?_
    show IntOp.addi (iota .tc S1x1024 32 [1] iota_S1x1024_d1_w32 (ix2 0 j)) _ = _
    rw [iota_single_apply]
    rfl
  unfold k0_pay11
  refine (congrArg₂ IntOp.andi (congrArg₂ (IntOp.cmpi .eq) eA eB) (congrArg₂ (IntOp.cmpi .ne) eC eD)).trans ?_
  refine eqAndNe_word _ _ _ _ _ ?_
  unfold posCond
  refine and_congr Iff.rfl (not_congr ?_)
  rw [← BitVec.toNat_inj, rowWord_toNat, colWord_toNat]

/-- The positives' running sum of log-probabilities after a chunk. -/
theorem pay12_apply (i : grid0.Coords) (v7 v10 : FVec Ideal S256x1 .f32) (k : Fin k0_t3_loop.trips) (acc : FVec Ideal S256x1 .f32)
    (v31 v33 : Vec Ideal S256x1024 .f32) (v35 : Vec Ideal S1x1024 .i32) (v40 : Vec Ideal S256x1 .i32) (p : Fin 256) :
    (k0_pay12 (F := Ideal) i v7 v10 k acc v31 v33 v35 v40 (ix2 p 0) : EReal)
      = (acc (ix2 p 0) : EReal) + ∑ j : Fin 1024, (if posCond i k v35 v40 p j
          then ((v31 (ix2 p j) : EReal) - (v7 (ix2 p 0) : EReal)) - Ideal.log ((v33 (ix2 p j) : EReal) + (v10 (ix2 p 0) : EReal)) else 0) := by
  unfold k0_pay12
  show (acc (ix2 p 0) : EReal) + _ = _
  congr 1
  refine (RowsCols.shapeCast_a_a1_apply _ shapeCasts_S256_S256x1 p 0).trans ?_
  refine (RowsCols.laneSum_apply _ 0x00000000#32 reduces_S256x1024_S256 (.inl rfl) rfl p).trans ?_
  refine Finset.sum_congr rfl fun j _ => ?_
  show Scalar.select (k0_pay11 (F := Ideal) i k v35 v40 (ix2 p j))
      (((v31 (ix2 p j) : EReal) - broadcastTo S256x1024 v7 broadcasts_S256x1_S256x1024 (ix2 p j))
        - Ideal.log ((v33 (ix2 p j) : EReal) + broadcastTo S256x1024 v10 broadcasts_S256x1_S256x1024 (ix2 p j)))
      (Ideal.ofBits .f32 0x00000000#32) = _
  rw [pay11_apply, RowsCols.broadcastTo_a1_ab_apply v7 broadcasts_S256x1_S256x1024 p j,
    RowsCols.broadcastTo_a1_ab_apply v10 broadcasts_S256x1_S256x1024 p j, Ideal.ofBits_zero_f32]
  by_cases h : posCond i k v35 v40 p j
  · rw [if_pos h, if_pos h, select_one]
  · rw [if_neg h, if_neg h, select_zero]

/-- The positives' running count after a chunk. -/
theorem pay13_apply (i : grid0.Coords) (k : Fin k0_t3_loop.trips) (acc : FVec Ideal S256x1 .f32)
    (v35 : Vec Ideal S1x1024 .i32) (v40 : Vec Ideal S256x1 .i32) (p : Fin 256) :
    (k0_pay13 (F := Ideal) i k acc v35 v40 (ix2 p 0) : EReal)
      = (acc (ix2 p 0) : EReal) + ∑ j : Fin 1024, (if posCond i k v35 v40 p j then (1 : EReal) else 0) := by
  unfold k0_pay13
  show (acc (ix2 p 0) : EReal) + _ = _
  congr 1
  refine (RowsCols.shapeCast_a_a1_apply _ shapeCasts_S256_S256x1 p 0).trans ?_
  refine (RowsCols.laneSum_apply _ 0x00000000#32 reduces_S256x1024_S256 (.inl rfl) rfl p).trans ?_
  refine Finset.sum_congr rfl fun j _ => ?_
  show (((((k0_pay11 (F := Ideal) i k v35 v40 (ix2 p j)).setWidth 32).toInt : ℤ) : ℝ) : EReal) = _
  rw [pay11_apply]
  by_cases h : posCond i k v35 v40 p j
  · rw [if_pos h, if_pos h, show ((1#1 : BitVec 1).setWidth 32).toInt = 1 by decide, Int.cast_one, EReal.coe_one]
  · rw [if_neg h, if_neg h, show ((0#1 : BitVec 1).setWidth 32).toInt = 0 by decide, Int.cast_zero, EReal.coe_zero]

/-- The row's loss, in every lane: minus the quotient of the sum by the count where the count is positive. -/
theorem pay14_apply (a b : FVec Ideal S256x1 .f32) (p : Fin 256) (l : Fin 128) (hb : (0 : EReal) < (b (ix2 p 0) : EReal)) :
    (k0_pay14 (F := Ideal) a b (ix2 p l) : EReal)
      = Ideal.ofBits .f32 0xBF800000#32 * Ideal.div (a (ix2 p 0) : EReal) (b (ix2 p 0) : EReal) := by
  unfold k0_pay14
  refine (RowsCols.broadcastTo_a1_ab_apply _ broadcasts_S256x1_S256x128 p l).trans ?_
  rw [shapeCast_self]
  show Ideal.ofBits .f32 0xBF800000#32
      * Scalar.select (Ideal.cmp .ogt (b (ix2 p 0)) (Ideal.ofBits .f32 0x00000000#32))
          (Ideal.div (a (ix2 p 0)) (b (ix2 p 0))) (Ideal.ofBits .f32 0x00000000#32) = _
  have hc : Ideal.cmp .ogt (b (ix2 p 0)) (Ideal.ofBits .f32 0x00000000#32) = 1#1 := by
    rw [Ideal.ofBits_zero_f32]
    show BitVec.ofBool (decide ((0 : EReal) < b (ix2 p 0))) = 1#1
    rw [decide_eq_true hb]; rfl
  rw [hc, select_one]

end Cert.KernelIdeal.Pay

end
-- ==== Proof.KernelLoop3.lean ====
/-
  The third loop of a tile's body: over the eight chunks of 1024 columns, the running sum of the log-probabilities
  over the row's positives and the running count of the positives.  A trip reads chunk k of both scratch buffers
  (the scaled similarities and their exponentials), chunk k of the resident label row and the tile's own label
  column; column j of the chunk is a positive of the tile's row p exactly when global column 1024·k + j is a positive
  of global row 256·i + p.  After the eight chunks the two carried values are the row's sum over all 8192 columns
  and its number of positives.
-/
import proofs.«410188_j47519518162964_3_alg».proof.Proof.KernelLoop1
import proofs.«410188_j47519518162964_3_alg».proof.Proof.KernelPayB
import proofs.«410188_j47519518162964_3_alg».proof.Proof.Chunks

set_option maxRecDepth 16384

noncomputable section

open scoped BigOperators

namespace Cert.KernelIdeal.Rows

open Cert.KernelIdeal Cert.KernelIdeal.Gen Cert.KernelIdeal.GenP Cert.KernelIdeal.Pay Cert.Chunks
open Idealize.ShloMosaic Idealize.ShloMosaic.ValueIdx Idealize.SL.Sem

section Loop3

variable (c : Dev nD) (i : grid0.Coords) (arg1 : Memref sig .tc .vmem S256x1 .i32) (harg1 : arg1.IsWhole) (arg2 : Memref sig .tc .vmem S8192x64 .f32) (harg2 : arg2.IsWhole) (arg3 : Memref sig .tc .vmem S1x8192 .i32) (harg3 : arg3.IsWhole) (arg4 : Memref sig .tc .vmem S256x128 .f32) (harg4 : arg4.IsWhole) (arg5 : Memref sig .tc .vmem S256x8192 .f32) (harg5 : arg5.IsWhole) (arg6 : Memref sig .tc .vmem S256x8192 .f32) (harg6 : arg6.IsWhole)

/-! ## A trip's four loads -/

/-- Chunk k of a [256, 8192] scratch buffer, as a trip loads it. -/
abbrev ldChunk (m : Memref sig .tc .vmem S256x8192 .f32) (Y : BufTy.Contents (Elt Ideal) m.view.ty) (k : Fin k0_t3_loop.trips) :
    Vec Ideal S256x1024 .f32 :=
  View.readAt (Elt Ideal) m.view (Rect.unit (s := S256x8192) (k0_off6 k) S256x1024.size (k0_off6_inb k)).toLoadRect Y

/-- Chunk k of the resident label row, as a trip loads it. -/
abbrev ldLab (X3 : BufTy.Contents (Elt Ideal) arg3.view.ty) (k : Fin k0_t3_loop.trips) : Vec Ideal S1x1024 .i32 :=
  View.readAt (Elt Ideal) arg3.view (Rect.unit (s := S1x8192) (k0_off7 k) S1x1024.size (k0_off7_inb k)).toLoadRect X3

/-- The tile's own label column, as a trip loads it. -/
abbrev ldOwn (X1 : BufTy.Contents (Elt Ideal) arg1.view.ty) : Vec Ideal S256x1 .i32 :=
  View.readAt (Elt Ideal) arg1.view (Rect.unit (s := S256x1) ![0, 0] S256x1.size inb_S256x1_S256x1_0_0).toLoadRect X1

/-- Entry (p, j) of chunk k of a scratch buffer is the buffer's entry (p, 1024·k + j). -/
theorem ldChunk_apply (m : Memref sig .tc .vmem S256x8192 .f32) (Y : BufTy.Contents (Elt Ideal) m.view.ty)
    (k : Fin k0_t3_loop.trips) (hk : k.val < 8) (p : Fin 256) (j : Fin 1024) :
    (ldChunk m Y k (ix2 p j) : EReal) = (m.view.read (Elt Ideal) Y (ix2 p (col ⟨k.val, hk⟩ j)) : EReal) := by
  unfold ldChunk
  refine (readAt_unit2 (Val := Elt Ideal) m.view Y (k0_off6 k) (k0_off6_inb k) 0 (1024 * k.val) (k0_off6_eq k) p j
    (by have := p.isLt; omega) (by have := j.isLt; omega)).trans ?_
  refine congrArg (m.view.read (Elt Ideal) Y) (funext fun a => Fin.ext ?_)
  match a with
  | ⟨0, _⟩ => show 0 + p.val = p.val; omega
  | ⟨1, _⟩ => rfl

/-- Entry j of chunk k of the label row is the label of column 1024·k + j. -/
theorem ldLab_apply (x2 : Vec Ideal S1x8192 .i32) (k : Fin k0_t3_loop.trips) (hk : k.val < 8) (j : Fin 1024) :
    (ldLab arg3 (harg3.unread x2) k (ix2 0 j) : BitVec 32) = (x2 (ix2 0 (col ⟨k.val, hk⟩ j)) : BitVec 32) := by
  unfold ldLab
  refine (readAt_unit2 (Val := Elt Ideal) arg3.view (harg3.unread x2) (k0_off7 k) (k0_off7_inb k) 0 (1024 * k.val) (k0_off7_eq k) 0 j
    (by show 0 + 0 < 1; omega) (by have := j.isLt; omega)).trans ?_
  rw [harg3.read_unread]
  refine congrArg x2 (funext fun a => Fin.ext ?_)
  match a with
  | ⟨0, _⟩ => rfl
  | ⟨1, _⟩ => rfl

/-- Entry p of the tile's label column, as loaded, is the column's entry p. -/
theorem ldOwn_apply (x0 : Vec Ideal S256x1 .i32) (p : Fin 256) :
    (ldOwn arg1 (harg1.unread x0) (ix2 p 0) : BitVec 32) = (x0 (ix2 p 0) : BitVec 32) := by
  unfold ldOwn
  refine (readAt_unit2 (Val := Elt Ideal) arg1.view (harg1.unread x0) ![0, 0] inb_S256x1_S256x1_0_0 0 0 rfl p 0
    (by have := p.isLt; omega) (by show 0 + 0 < 1; omega)).trans ?_
  rw [harg1.read_unread]
  refine congrArg x0 (funext fun a => Fin.ext ?_)
  match a with
  | ⟨0, _⟩ => show 0 + p.val = p.val; omega
  | ⟨1, _⟩ => rfl

/-- Column j of chunk k is a positive of the tile's row p exactly when the global column is a positive of the global row. -/
theorem posCond_iff (x0 : Vec Ideal S256x1 .i32) (x2 : Vec Ideal S1x8192 .i32) (lab : Fin 8192 → BitVec 32)
    (hq : ∀ p : Fin 256, (x0 (ix2 p 0) : BitVec 32) = lab (row i p))
    (hk : ∀ j : Fin 8192, (x2 (ix2 0 j) : BitVec 32) = lab j)
    (k : Fin k0_t3_loop.trips) (hk8 : k.val < 8) (p : Fin 256) (j : Fin 1024) :
    posCond i k (ldLab arg3 (harg3.unread x2) k) (ldOwn arg1 (harg1.unread x0)) p j
      ↔ Cert.Spec.isPos lab (row i p) (col ⟨k.val, hk8⟩ j) := by
  unfold posCond Cert.Spec.isPos
  rw [ldLab_apply arg3 harg3 x2 k hk8 j, ldOwn_apply arg1 harg1 x0 p, hk, hq]
  refine and_congr Iff.rfl ?_
  rw [Ne, Ne, Fin.ext_iff]
  rfl

/-! ## A trip, opened once -/

/-- A trip of the third loop yields the two running sums' updates from the four loads. -/
theorem tripR3_eq (v7 v10 : FVec Ideal S256x1 .f32) (X1 : BufTy.Contents (Elt Ideal) arg1.view.ty)
    (X3 : BufTy.Contents (Elt Ideal) arg3.view.ty) (X5 : BufTy.Contents (Elt Ideal) arg5.view.ty)
    (X6 : BufTy.Contents (Elt Ideal) arg6.view.ty) (k : Fin k0_t3_loop.trips)
    (acc : FVec Ideal S256x1 .f32 × FVec Ideal S256x1 .f32) :
    tripR_k0_t3 (F := Ideal) Variants.none c none i arg1 harg1 arg2 harg2 arg3 harg3 arg4 harg4 arg5 harg5 arg6 harg6 v7 v10 X1 X3 X5 X6 k acc
      = (k0_pay12 (F := Ideal) i v7 v10 k acc.1 (ldChunk arg5 X5 k) (ldChunk arg6 X6 k) (ldLab arg3 X3 k) (ldOwn arg1 X1),
         k0_pay13 (F := Ideal) i k acc.2 (ldLab arg3 X3 k) (ldOwn arg1 X1)) := by
  unfold tripR_k0_t3
  unfold trip_k0_t3
  rfl

/-! ## The loop's state, trip by trip -/

/-- Before trip n the two carried values at row p are the running sums, over the first n chunks, of the
    log-probabilities over the row's positives and of ones over them. -/
theorem loop3_inv (x0 : Vec Ideal S256x1 .i32) (x2 : Vec Ideal S1x8192 .i32) (X : Fin 8192 → Fin 64 → EReal) (lab : Fin 8192 → BitVec 32)
    (v7 v10 : FVec Ideal S256x1 .f32) (X5 : BufTy.Contents (Elt Ideal) arg5.view.ty) (X6 : BufTy.Contents (Elt Ideal) arg6.view.ty)
    (hq : ∀ p : Fin 256, (x0 (ix2 p 0) : BitVec 32) = lab (row i p))
    (hk : ∀ j : Fin 8192, (x2 (ix2 0 j) : BitVec 32) = lab j)
    (hv7 : ∀ p : Fin 256, (v7 (ix2 p 0) : EReal) = Cert.Spec.rowMax X (row i p))
    (hv10 : ∀ p : Fin 256, (v10 (ix2 p 0) : EReal) = Cert.Spec.negSum X lab (row i p))
    (hX5 : ∀ (p : Fin 256) (j : Fin 8192), (arg5.view.read (Elt Ideal) X5 (ix2 p j) : EReal) = Cert.Spec.logit X (row i p) j)
    (hX6 : ∀ (p : Fin 256) (j : Fin 8192), (arg6.view.read (Elt Ideal) X6 (ix2 p j) : EReal) = Cert.Spec.expo X (row i p) j)
    (p : Fin 256) (n : ℕ) (hn : n ≤ 8) :
    ((st_k0_t3 (F := Ideal) Variants.none c none i arg1 harg1 arg2 harg2 arg3 harg3 arg4 harg4 arg5 harg5 arg6 harg6 v7 v10 (harg1.unread x0) (harg3.unread x2) X5 X6 (k0_pay9, k0_pay10) n).1 (ix2 p 0) : EReal)
        = accSum (fun j => if Cert.Spec.isPos lab (row i p) j then Cert.Spec.logProb X lab (row i p) j else 0) 0 n
    ∧ ((st_k0_t3 (F := Ideal) Variants.none c none i arg1 harg1 arg2 harg2 arg3 harg3 arg4 harg4 arg5 harg5 arg6 harg6 v7 v10 (harg1.unread x0) (harg3.unread x2) X5 X6 (k0_pay9, k0_pay10) n).2 (ix2 p 0) : EReal)
        = accSum (fun j => if Cert.Spec.isPos lab (row i p) j then (1 : EReal) else 0) 0 n := by
  induction n with
  | zero => exact ⟨pay9_apply (ix2 p 0), pay10_apply (ix2 p 0)⟩
  | succ n ih =>
    have hn' : n < 8 := by omega
    obtain ⟨ihA, ihB⟩ := ih (by omega)
    have hkt : n < k0_t3_loop.trips := by rw [ltrips3]; exact hn'
    have e := st_k0_t3_succ (F := Ideal) Variants.none c none i arg1 harg1 arg2 harg2 arg3 harg3 arg4 harg4 arg5 harg5 arg6 harg6 v7 v10 (harg1.unread x0) (harg3.unread x2) X5 X6 (k0_pay9, k0_pay10) ⟨n, hkt⟩
    have hc : ∀ j : Fin 1024,
        posCond i ⟨n, hkt⟩ (ldLab arg3 (harg3.unread x2) ⟨n, hkt⟩) (ldOwn arg1 (harg1.unread x0)) p j
          ↔ Cert.Spec.isPos lab (row i p) (col ⟨n, hn'⟩ j) :=
      fun j => posCond_iff i arg1 harg1 arg3 harg3 x0 x2 lab hq hk ⟨n, hkt⟩ hn' p j
    constructor
    · show ((st_k0_t3 (F := Ideal) Variants.none c none i arg1 harg1 arg2 harg2 arg3 harg3 arg4 harg4 arg5 harg5 arg6 harg6 v7 v10 (harg1.unread x0) (harg3.unread x2) X5 X6 (k0_pay9, k0_pay10) (n + 1)).1 (ix2 p 0) : EReal) = _
      rw [e, tripR3_eq]
      dsimp only
      rw [pay12_apply, accSum_succ _ _ ⟨n, hn'⟩, ihA]
      refine congrArg (_ + ·) (Finset.sum_congr rfl fun j _ => ?_)
      refine if_congr (hc j) ?_ rfl
      rw [ldChunk_apply arg5 X5 ⟨n, hkt⟩ hn' p j, ldChunk_apply arg6 X6 ⟨n, hkt⟩ hn' p j, hX5, hX6, hv7, hv10]
      rfl
    · show ((st_k0_t3 (F := Ideal) Variants.none c none i arg1 harg1 arg2 harg2 arg3 harg3 arg4 harg4 arg5 harg5 arg6 harg6 v7 v10 (harg1.unread x0) (harg3.unread x2) X5 X6 (k0_pay9, k0_pay10) (n + 1)).2 (ix2 p 0) : EReal) = _
      rw [e, tripR3_eq]
      dsimp only
      rw [pay13_apply, accSum_succ _ _ ⟨n, hn'⟩, ihB]
      exact congrArg (_ + ·) (Finset.sum_congr rfl fun j _ => if_congr (hc j) rfl rfl)

/-! ## After the eight chunks -/

/-- After the third loop the two carried values at row p are the row's sum of log-probabilities over its positives
    and the number of its positives. -/
theorem loop3_value (x0 : Vec Ideal S256x1 .i32) (x2 : Vec Ideal S1x8192 .i32) (X : Fin 8192 → Fin 64 → EReal) (lab : Fin 8192 → BitVec 32)
    (v7 v10 : FVec Ideal S256x1 .f32) (X5 : BufTy.Contents (Elt Ideal) arg5.view.ty) (X6 : BufTy.Contents (Elt Ideal) arg6.view.ty)
    (hq : ∀ p : Fin 256, (x0 (ix2 p 0) : BitVec 32) = lab (row i p))
    (hk : ∀ j : Fin 8192, (x2 (ix2 0 j) : BitVec 32) = lab j)
    (hv7 : ∀ p : Fin 256, (v7 (ix2 p 0) : EReal) = Cert.Spec.rowMax X (row i p))
    (hv10 : ∀ p : Fin 256, (v10 (ix2 p 0) : EReal) = Cert.Spec.negSum X lab (row i p))
    (hX5 : ∀ (p : Fin 256) (j : Fin 8192), (arg5.view.read (Elt Ideal) X5 (ix2 p j) : EReal) = Cert.Spec.logit X (row i p) j)
    (hX6 : ∀ (p : Fin 256) (j : Fin 8192), (arg6.view.read (Elt Ideal) X6 (ix2 p j) : EReal) = Cert.Spec.expo X (row i p) j)
    (p : Fin 256) :
    ((st_k0_t3 (F := Ideal) Variants.none c none i arg1 harg1 arg2 harg2 arg3 harg3 arg4 harg4 arg5 harg5 arg6 harg6 v7 v10 (harg1.unread x0) (harg3.unread x2) X5 X6 (k0_pay9, k0_pay10) 8).1 (ix2 p 0) : EReal) = Cert.Spec.posSum X lab (row i p)
    ∧ ((st_k0_t3 (F := Ideal) Variants.none c none i arg1 harg1 arg2 harg2 arg3 harg3 arg4 harg4 arg5 harg5 arg6 harg6 v7 v10 (harg1.unread x0) (harg3.unread x2) X5 X6 (k0_pay9, k0_pay10) 8).2 (ix2 p 0) : EReal) = Cert.Spec.posCnt lab (row i p) := by
  obtain ⟨hA, hB⟩ := loop3_inv c i arg1 harg1 arg2 harg2 arg3 harg3 arg4 harg4 arg5 harg5 arg6 harg6 x0 x2 X lab v7 v10 X5 X6 hq hk hv7 hv10 hX5 hX6 p 8 le_rfl
  refine ⟨hA.trans ?_, hB.trans ?_⟩
  · rw [accSum_eight, zero_add]; rfl
  · rw [accSum_eight, zero_add]; rfl

end Loop3

end Cert.KernelIdeal.Rows

end
-- ==== Proof.KernelLoop2.lean ====
/-
  The second and third loops of a tile's body, and the tile's output block.

  The second loop reads the cached similarities back chunk by chunk, stores their exponentials (shifted by the
  row's maximum) into the second scratch buffer and carries the sum of the exponentials over the columns whose
  label differs from the row's.  The third loop reads both caches and carries two sums over the positives (same
  label, another row): of the log-probabilities, and of ones.  The block stored at the end holds, in every lane of
  row p, minus the quotient of the two.  Each carried value is the running sum over the chunks so far, so after
  eight chunks it is the sum over all 8192 columns.
-/
import proofs.«410188_j47519518162964_3_alg».proof.Proof.KernelLoop1
import proofs.«410188_j47519518162964_3_alg».proof.Proof.KernelLoop3
import proofs.«410188_j47519518162964_3_alg».proof.Proof.KernelPayB

set_option maxRecDepth 16384

noncomputable section

open scoped BigOperators

namespace Cert.KernelIdeal.Rows

open Cert.KernelIdeal Cert.KernelIdeal.Gen Cert.KernelIdeal.GenP Cert.KernelIdeal.Pay Cert.Chunks
open Idealize.ShloMosaic Idealize.ShloMosaic.ValueIdx Idealize.SL.Sem

section Body

variable (c : Dev nD) (i : grid0.Coords) (arg1 : Memref sig .tc .vmem S256x1 .i32) (harg1 : arg1.IsWhole) (arg2 : Memref sig .tc .vmem S8192x64 .f32) (harg2 : arg2.IsWhole) (arg3 : Memref sig .tc .vmem S1x8192 .i32) (harg3 : arg3.IsWhole) (arg4 : Memref sig .tc .vmem S256x128 .f32) (harg4 : arg4.IsWhole) (arg5 : Memref sig .tc .vmem S256x8192 .f32) (harg5 : arg5.IsWhole) (arg6 : Memref sig .tc .vmem S256x8192 .f32) (harg6 : arg6.IsWhole) (x0 : Vec Ideal S256x1 .i32) (x1 : Vec Ideal S8192x64 .f32) (x2 : Vec Ideal S1x8192 .i32)

/-! ## What the first loop leaves -/

theorem loop1_eq : loop1 (F := Ideal) c i arg1 harg1 arg2 harg2 arg3 harg3 arg4 harg4 arg5 harg5 arg6 harg6 x1 = st1 c i arg1 harg1 arg2 harg2 arg3 harg3 arg4 harg4 arg5 harg5 arg6 harg6 x1 8 := by
  unfold loop1 st1 qTile
  rw [trips1]

/-- The carried maximum after the first loop is the row's largest scaled similarity. -/
theorem loop1_max (p : Fin 256) :
    ((loop1 (F := Ideal) c i arg1 harg1 arg2 harg2 arg3 harg3 arg4 harg4 arg5 harg5 arg6 harg6 x1).1 (ix2 p 0) : EReal) = Cert.Spec.rowMax (rowsX x1) (row i p) := by
  rw [loop1_eq, (loop1_inv c i arg1 harg1 arg2 harg2 arg3 harg3 arg4 harg4 arg5 harg5 arg6 harg6 x1 8 le_rfl).1 p, accMax_eight]
  rfl

/-- The first scratch, read anywhere, holds the scaled similarity of the tile's row and the column. -/
theorem scratch0_read (z : S256x8192.Idx) :
    (arg5.view.read (Elt Ideal) (scratch0 (F := Ideal) c i arg1 harg1 arg2 harg2 arg3 harg3 arg4 harg4 arg5 harg5 arg6 harg6 x1) z : EReal) = logitAt i x1 (z 0).val (z 1).val := by
  unfold scratch0
  refine View.read_writes_apply_of_pieces arg5.view _ (fun z => logitAt i x1 (z 0).val (z 1).val) _ ?_ z
    (cover_scratch0 (F := Ideal) c i arg1 harg1 arg2 harg2 arg3 harg3 arg4 harg4 arg5 harg5 arg6 harg6 x1 z)
  rw [loop1_eq]
  exact (loop1_inv c i arg1 harg1 arg2 harg2 arg3 harg3 arg4 harg4 arg5 harg5 arg6 harg6 x1 8 le_rfl).2

end Body

/-! ## The second loop -/

section Loop2

variable (c : Dev nD) (i : grid0.Coords) (arg1 : Memref sig .tc .vmem S256x1 .i32) (harg1 : arg1.IsWhole) (arg2 : Memref sig .tc .vmem S8192x64 .f32) (harg2 : arg2.IsWhole) (arg3 : Memref sig .tc .vmem S1x8192 .i32) (harg3 : arg3.IsWhole) (arg4 : Memref sig .tc .vmem S256x128 .f32) (harg4 : arg4.IsWhole) (arg5 : Memref sig .tc .vmem S256x8192 .f32) (harg5 : arg5.IsWhole) (arg6 : Memref sig .tc .vmem S256x8192 .f32) (harg6 : arg6.IsWhole) (x0 : Vec Ideal S256x1 .i32) (x1 : Vec Ideal S8192x64 .f32) (x2 : Vec Ideal S1x8192 .i32) (lab : Fin 8192 → BitVec 32)

/-- The exponential of the shifted similarity of the tile's row a and row b, by raw coordinates (zero outside the block). -/
def expoAt (i : grid0.Coords) (x1 : Vec Ideal S8192x64 .f32) (a b : ℕ) : EReal :=
  if h : a < 256 ∧ b < 8192 then Cert.Spec.expo (rowsX x1) (row i ⟨a, h.1⟩) ⟨b, h.2⟩ else 0

theorem expoAt_eq (i : grid0.Coords) (x1 : Vec Ideal S8192x64 .f32) (p : Fin 256) (j : Fin 8192) (a b : ℕ) (ha : a = p.val) (hb : b = j.val) :
    expoAt i x1 a b = Cert.Spec.expo (rowsX x1) (row i p) j := by
  subst ha hb
  unfold expoAt
  rw [dif_pos ⟨p.isLt, j.isLt⟩]

/-- A chunk of the cached similarities, as a trip of the second loop loads it. -/
abbrev simChunk (k : Fin k0_t2_loop.trips) : Vec Ideal S256x1024 .f32 :=
  View.readAt (Elt Ideal) arg5.view (Rect.unit (s := S256x8192) (k0_off4 k) S256x1024.size (k0_off4_inb k)).toLoadRect (scratch0 (F := Ideal) c i arg1 harg1 arg2 harg2 arg3 harg3 arg4 harg4 arg5 harg5 arg6 harg6 x1)

/-- A chunk of the resident label row. -/
abbrev labChunk (k : Fin k0_t2_loop.trips) : Vec Ideal S1x1024 .i32 :=
  View.readAt (Elt Ideal) arg3.view (Rect.unit (s := S1x8192) (k0_off5 k) S1x1024.size (k0_off5_inb k)).toLoadRect (harg3.unread x2)

/-- The tile's label column. -/
abbrev labCol : Vec Ideal S256x1 .i32 :=
  View.readAt (Elt Ideal) arg1.view (Rect.unit (s := S256x1) ![0, 0] S256x1.size inb_S256x1_S256x1_0_0).toLoadRect (harg1.unread x0)

theorem simChunk_apply (k : Fin k0_t2_loop.trips) (hk : k.val < 8) (p : Fin 256) (j : Fin 1024) :
    (simChunk c i arg1 harg1 arg2 harg2 arg3 harg3 arg4 harg4 arg5 harg5 arg6 harg6 x1 k (ix2 p j) : EReal) = Cert.Spec.logit (rowsX x1) (row i p) (col ⟨k.val, hk⟩ j) := by
  unfold simChunk
  refine (readAt_unit2 (Val := Elt Ideal) arg5.view (scratch0 (F := Ideal) c i arg1 harg1 arg2 harg2 arg3 harg3 arg4 harg4 arg5 harg5 arg6 harg6 x1) (k0_off4 k) (k0_off4_inb k) 0 (1024 * k.val) (k0_off4_eq k) p j
    (by have := p.isLt; omega) (by have := j.isLt; omega)).trans ?_
  rw [scratch0_read]
  exact logitAt_eq i x1 p (col ⟨k.val, hk⟩ j) _ _ (by show 0 + p.val = p.val; omega) rfl

theorem labChunk_apply (k : Fin k0_t2_loop.trips) (hk : k.val < 8) (j : Fin 1024) :
    (labChunk arg3 harg3 x2 k (ix2 0 j) : BitVec 32) = x2 (ix2 0 (col ⟨k.val, hk⟩ j)) := by
  unfold labChunk
  refine (readAt_unit2 (Val := Elt Ideal) arg3.view (harg3.unread x2) (k0_off5 k) (k0_off5_inb k) 0 (1024 * k.val) (k0_off5_eq k) (0 : Fin 1) j
    (by omega) (by have := j.isLt; omega)).trans ?_
  rw [harg3.read_unread]
  rfl

theorem labCol_apply (p : Fin 256) :
    (labCol arg1 harg1 x0 (ix2 p 0) : BitVec 32) = x0 (ix2 p 0) := by
  unfold labCol
  refine (readAt_unit2 (Val := Elt Ideal) arg1.view (harg1.unread x0) ![0, 0] inb_S256x1_S256x1_0_0 0 0 rfl p (0 : Fin 1)
    (by have := p.isLt; omega) (by omega)).trans ?_
  rw [harg1.read_unread]
  congr 1
  funext a
  apply Fin.ext
  match a with
  | ⟨0, _⟩ => show 0 + p.val = p.val; omega
  | ⟨1, _⟩ => rfl

/-- The second loop's state before trip n. -/
abbrev st2 (n : ℕ) :=
  st_k0_t2 (F := Ideal) Variants.none c none i arg1 harg1 arg2 harg2 arg3 harg3 arg4 harg4 arg5 harg5 arg6 harg6 (loop1 (F := Ideal) c i arg1 harg1 arg2 harg2 arg3 harg3 arg4 harg4 arg5 harg5 arg6 harg6 x1).1 (harg1.unread x0) (harg3.unread x2)
    (scratch0 (F := Ideal) c i arg1 harg1 arg2 harg2 arg3 harg3 arg4 harg4 arg5 harg5 arg6 harg6 x1) k0_pay5 n

theorem tripR2_eq (k : Fin k0_t2_loop.trips) (acc : FVec Ideal S256x1 .f32) :
    tripR_k0_t2 (F := Ideal) Variants.none c none i arg1 harg1 arg2 harg2 arg3 harg3 arg4 harg4 arg5 harg5 arg6 harg6 (loop1 (F := Ideal) c i arg1 harg1 arg2 harg2 arg3 harg3 arg4 harg4 arg5 harg5 arg6 harg6 x1).1 (harg1.unread x0) (harg3.unread x2) (scratch0 (F := Ideal) c i arg1 harg1 arg2 harg2 arg3 harg3 arg4 harg4 arg5 harg5 arg6 harg6 x1) k acc
      = k0_pay8 (F := Ideal) (loop1 (F := Ideal) c i arg1 harg1 arg2 harg2 arg3 harg3 arg4 harg4 arg5 harg5 arg6 harg6 x1).1 acc (simChunk c i arg1 harg1 arg2 harg2 arg3 harg3 arg4 harg4 arg5 harg5 arg6 harg6 x1 k) (labChunk arg3 harg3 x2 k) (labCol arg1 harg1 x0) := by
  unfold tripR_k0_t2
  unfold trip_k0_t2
  rfl

theorem tripL2_eq (k : Fin k0_t2_loop.trips) (acc : FVec Ideal S256x1 .f32) :
    tripL_k0_t2 (F := Ideal) Variants.none c none i arg1 harg1 arg2 harg2 arg3 harg3 arg4 harg4 arg5 harg5 arg6 harg6 (loop1 (F := Ideal) c i arg1 harg1 arg2 harg2 arg3 harg3 arg4 harg4 arg5 harg5 arg6 harg6 x1).1 (harg1.unread x0) (harg3.unread x2) (scratch0 (F := Ideal) c i arg1 harg1 arg2 harg2 arg3 harg3 arg4 harg4 arg5 harg5 arg6 harg6 x1) k acc
      = [⟨Rect.unit (s := S256x8192) (k0_off4 k) S256x1024.size (k0_off4_inb k), k0_pay7 (F := Ideal) (loop1 (F := Ideal) c i arg1 harg1 arg2 harg2 arg3 harg3 arg4 harg4 arg5 harg5 arg6 harg6 x1).1 (simChunk c i arg1 harg1 arg2 harg2 arg3 harg3 arg4 harg4 arg5 harg5 arg6 harg6 x1 k)⟩] := by
  unfold tripL_k0_t2
  unfold trip_k0_t2
  rfl

/-- A chunk's exponential entry. -/
theorem chunk_expo (k : Fin k0_t2_loop.trips) (hk : k.val < 8) (p : Fin 256) (j : Fin 1024) :
    (k0_pay6 (F := Ideal) (loop1 (F := Ideal) c i arg1 harg1 arg2 harg2 arg3 harg3 arg4 harg4 arg5 harg5 arg6 harg6 x1).1 (simChunk c i arg1 harg1 arg2 harg2 arg3 harg3 arg4 harg4 arg5 harg5 arg6 harg6 x1 k) (ix2 p j) : EReal)
      = Cert.Spec.expo (rowsX x1) (row i p) (col ⟨k.val, hk⟩ j) := by
  rw [pay6_apply, simChunk_apply (hk := hk), loop1_max]
  rfl

/-- Before trip n the carried value is the negatives' sum over the first n chunks, and every piece stored so far is a
    block of the one function "exponential of the shifted similarity". -/
theorem loop2_inv (hq : ∀ p : Fin 256, (x0 (ix2 p 0) : BitVec 32) = lab (row i p))
    (hk : ∀ j : Fin 8192, (x2 (ix2 0 j) : BitVec 32) = lab j) (n : ℕ) (hn : n ≤ 8) :
    (∀ p : Fin 256, ((st2 c i arg1 harg1 arg2 harg2 arg3 harg3 arg4 harg4 arg5 harg5 arg6 harg6 x0 x1 x2 n).1 (ix2 p 0) : EReal)
        = accSum (fun j => if lab (row i p) = lab j then 0 else Cert.Spec.expo (rowsX x1) (row i p) j) 0 n)
    ∧ (∀ pc ∈ (st2 c i arg1 harg1 arg2 harg2 arg3 harg3 arg4 harg4 arg5 harg5 arg6 harg6 x0 x1 x2 n).2, ∀ y : pc.1.shape.Idx,
        (pc.2 y : EReal) = expoAt i x1 (pc.1.emb y 0).val (pc.1.emb y 1).val) := by
  induction n with
  | zero =>
    refine ⟨fun p => ?_, fun pc hpc => absurd hpc List.not_mem_nil⟩
    show (k0_pay5 (F := Ideal) (ix2 p 0) : EReal) = _
    rw [pay5_apply]; rfl
  | succ n ih =>
    have hn' : n < 8 := by omega
    obtain ⟨ihA, ihB⟩ := ih (by omega)
    have hkt : n < k0_t2_loop.trips := by rw [ltrips2]; exact hn'
    have e := st_k0_t2_succ (F := Ideal) Variants.none c none i arg1 harg1 arg2 harg2 arg3 harg3 arg4 harg4 arg5 harg5 arg6 harg6 (loop1 (F := Ideal) c i arg1 harg1 arg2 harg2 arg3 harg3 arg4 harg4 arg5 harg5 arg6 harg6 x1).1 (harg1.unread x0) (harg3.unread x2)
      (scratch0 (F := Ideal) c i arg1 harg1 arg2 harg2 arg3 harg3 arg4 harg4 arg5 harg5 arg6 harg6 x1) k0_pay5 ⟨n, hkt⟩
    refine ⟨fun p => ?_, fun pc hpc y => ?_⟩
    · show ((st_k0_t2 (F := Ideal) Variants.none c none i arg1 harg1 arg2 harg2 arg3 harg3 arg4 harg4 arg5 harg5 arg6 harg6 (loop1 (F := Ideal) c i arg1 harg1 arg2 harg2 arg3 harg3 arg4 harg4 arg5 harg5 arg6 harg6 x1).1 (harg1.unread x0) (harg3.unread x2)
        (scratch0 (F := Ideal) c i arg1 harg1 arg2 harg2 arg3 harg3 arg4 harg4 arg5 harg5 arg6 harg6 x1) k0_pay5 (n + 1)).1 (ix2 p 0) : EReal) = _
      rw [e, tripR2_eq]
      dsimp only
      rw [pay8_apply, accSum_succ _ _ ⟨n, hn'⟩]
      congr 1
      · exact ihA p
      · refine Finset.sum_congr rfl fun j _ => ?_
        rw [labCol_apply, labChunk_apply (hk := hn'), hq, hk, chunk_expo c i arg1 harg1 arg2 harg2 arg3 harg3 arg4 harg4 arg5 harg5 arg6 harg6 x1 ⟨n, hkt⟩ hn' p j]
    · have hpc' : pc ∈ (st_k0_t2 (F := Ideal) Variants.none c none i arg1 harg1 arg2 harg2 arg3 harg3 arg4 harg4 arg5 harg5 arg6 harg6 (loop1 (F := Ideal) c i arg1 harg1 arg2 harg2 arg3 harg3 arg4 harg4 arg5 harg5 arg6 harg6 x1).1 (harg1.unread x0) (harg3.unread x2)
        (scratch0 (F := Ideal) c i arg1 harg1 arg2 harg2 arg3 harg3 arg4 harg4 arg5 harg5 arg6 harg6 x1) k0_pay5 (n + 1)).2 := hpc
      rw [e, tripL2_eq] at hpc'
      dsimp only at hpc'
      rcases List.mem_append.mp hpc' with h | h
      · obtain rfl := List.mem_singleton.mp h
        obtain ⟨p, j, rfl⟩ : ∃ (p : Fin 256) (j : Fin 1024), y = ix2 p j := ⟨y 0, y 1, eq_ix2 y⟩
        show (k0_pay7 (F := Ideal) (loop1 (F := Ideal) c i arg1 harg1 arg2 harg2 arg3 harg3 arg4 harg4 arg5 harg5 arg6 harg6 x1).1 (simChunk c i arg1 harg1 arg2 harg2 arg3 harg3 arg4 harg4 arg5 harg5 arg6 harg6 x1 ⟨n, hkt⟩) (ix2 p j) : EReal) = _
        rw [pay7_eq, chunk_expo c i arg1 harg1 arg2 harg2 arg3 harg3 arg4 harg4 arg5 harg5 arg6 harg6 x1 ⟨n, hkt⟩ hn' p j]
        refine (expoAt_eq i x1 p (col ⟨n, hn'⟩ j) _ _ ?_ ?_).symm
        · show (k0_off4 ⟨n, hkt⟩) 0 + 1 * p.val = p.val
          rw [k0_off4_eq]; show 0 + 1 * p.val = p.val; omega
        · show (k0_off4 ⟨n, hkt⟩) 1 + 1 * j.val = 1024 * n + j.val
          rw [k0_off4_eq]; show 1024 * n + 1 * j.val = 1024 * n + j.val; omega
      · exact ihB pc h y

theorem loop2_eq : loop2 (F := Ideal) c i arg1 harg1 arg2 harg2 arg3 harg3 arg4 harg4 arg5 harg5 arg6 harg6 x0 x1 x2 = st2 c i arg1 harg1 arg2 harg2 arg3 harg3 arg4 harg4 arg5 harg5 arg6 harg6 x0 x1 x2 8 := by
  unfold loop2 st2
  rw [trips2]

/-- The carried sum after the second loop is the row's sum of exponentials over the rows of another label. -/
theorem loop2_sum (hq : ∀ p : Fin 256, (x0 (ix2 p 0) : BitVec 32) = lab (row i p))
    (hk : ∀ j : Fin 8192, (x2 (ix2 0 j) : BitVec 32) = lab j) (p : Fin 256) :
    ((loop2 (F := Ideal) c i arg1 harg1 arg2 harg2 arg3 harg3 arg4 harg4 arg5 harg5 arg6 harg6 x0 x1 x2).1 (ix2 p 0) : EReal) = Cert.Spec.negSum (rowsX x1) lab (row i p) := by
  rw [loop2_eq, (loop2_inv c i arg1 harg1 arg2 harg2 arg3 harg3 arg4 harg4 arg5 harg5 arg6 harg6 x0 x1 x2 lab hq hk 8 le_rfl).1 p, accSum_eight, zero_add]
  rfl

/-- The second scratch, read anywhere, holds the exponential of the shifted similarity. -/
theorem scratch1_read (hq : ∀ p : Fin 256, (x0 (ix2 p 0) : BitVec 32) = lab (row i p))
    (hk : ∀ j : Fin 8192, (x2 (ix2 0 j) : BitVec 32) = lab j) (z : S256x8192.Idx) :
    (arg6.view.read (Elt Ideal) (scratch1 (F := Ideal) c i arg1 harg1 arg2 harg2 arg3 harg3 arg4 harg4 arg5 harg5 arg6 harg6 x0 x1 x2) z : EReal) = expoAt i x1 (z 0).val (z 1).val := by
  unfold scratch1
  refine View.read_writes_apply_of_pieces arg6.view _ (fun z => expoAt i x1 (z 0).val (z 1).val) _ ?_ z
    (cover_scratch1 (F := Ideal) c i arg1 harg1 arg2 harg2 arg3 harg3 arg4 harg4 arg5 harg5 arg6 harg6 x0 x1 x2 z)
  rw [loop2_eq]
  exact (loop2_inv c i arg1 harg1 arg2 harg2 arg3 harg3 arg4 harg4 arg5 harg5 arg6 harg6 x0 x1 x2 lab hq hk 8 le_rfl).2

end Loop2

/-! ## The tile's output block -/

section Out

variable (c : Dev nD) (i : grid0.Coords) (arg1 : Memref sig .tc .vmem S256x1 .i32) (harg1 : arg1.IsWhole) (arg2 : Memref sig .tc .vmem S8192x64 .f32) (harg2 : arg2.IsWhole) (arg3 : Memref sig .tc .vmem S1x8192 .i32) (harg3 : arg3.IsWhole) (arg4 : Memref sig .tc .vmem S256x128 .f32) (harg4 : arg4.IsWhole) (arg5 : Memref sig .tc .vmem S256x8192 .f32) (harg5 : arg5.IsWhole) (arg6 : Memref sig .tc .vmem S256x8192 .f32) (harg6 : arg6.IsWhole) (x0 : Vec Ideal S256x1 .i32) (x1 : Vec Ideal S8192x64 .f32) (x2 : Vec Ideal S1x8192 .i32)

theorem loop3_eq : loop3 (F := Ideal) c i arg1 harg1 arg2 harg2 arg3 harg3 arg4 harg4 arg5 harg5 arg6 harg6 x0 x1 x2
    = st_k0_t3 (F := Ideal) Variants.none c none i arg1 harg1 arg2 harg2 arg3 harg3 arg4 harg4 arg5 harg5 arg6 harg6 (loop1 (F := Ideal) c i arg1 harg1 arg2 harg2 arg3 harg3 arg4 harg4 arg5 harg5 arg6 harg6 x1).1 (loop2 (F := Ideal) c i arg1 harg1 arg2 harg2 arg3 harg3 arg4 harg4 arg5 harg5 arg6 harg6 x0 x1 x2).1
        (harg1.unread x0) (harg3.unread x2) (scratch0 (F := Ideal) c i arg1 harg1 arg2 harg2 arg3 harg3 arg4 harg4 arg5 harg5 arg6 harg6 x1) (scratch1 (F := Ideal) c i arg1 harg1 arg2 harg2 arg3 harg3 arg4 harg4 arg5 harg5 arg6 harg6 x0 x1 x2)
        (k0_pay9, k0_pay10) 8 := by
  unfold loop3
  rw [trips3]

/-- The block a tile stores: in every lane of row p, the loss of the tile's row p — given that the tile's label
    column and the resident label row are the rows' labels, and that every row has a positive. -/
theorem out_block (lab : Fin 8192 → BitVec 32)
    (hq : ∀ p : Fin 256, (x0 (ix2 p 0) : BitVec 32) = lab (row i p))
    (hk : ∀ j : Fin 8192, (x2 (ix2 0 j) : BitVec 32) = lab j)
    (hpos : ∀ r : Fin 8192, (0 : EReal) < Cert.Spec.posCnt lab r) (p : Fin 256) (l : Fin 128) :
    (out0_A_3 (F := Ideal) c i arg1 harg1 arg2 harg2 arg3 harg3 arg4 harg4 arg5 harg5 arg6 harg6 x0 x1 x2 (ix2 p l) : EReal)
      = Cert.Spec.lossRow (rowsX x1) lab (row i p) := by
  have hX5 : ∀ (p : Fin 256) (j : Fin 8192),
      (arg5.view.read (Elt Ideal) (scratch0 (F := Ideal) c i arg1 harg1 arg2 harg2 arg3 harg3 arg4 harg4 arg5 harg5 arg6 harg6 x1) (ix2 p j) : EReal) = Cert.Spec.logit (rowsX x1) (row i p) j :=
    fun p j => (scratch0_read c i arg1 harg1 arg2 harg2 arg3 harg3 arg4 harg4 arg5 harg5 arg6 harg6 x1 (ix2 p j)).trans (logitAt_eq i x1 p j _ _ rfl rfl)
  have hX6 : ∀ (p : Fin 256) (j : Fin 8192),
      (arg6.view.read (Elt Ideal) (scratch1 (F := Ideal) c i arg1 harg1 arg2 harg2 arg3 harg3 arg4 harg4 arg5 harg5 arg6 harg6 x0 x1 x2) (ix2 p j) : EReal) = Cert.Spec.expo (rowsX x1) (row i p) j :=
    fun p j => (scratch1_read c i arg1 harg1 arg2 harg2 arg3 harg3 arg4 harg4 arg5 harg5 arg6 harg6 x0 x1 x2 lab hq hk (ix2 p j)).trans (expoAt_eq i x1 p j _ _ rfl rfl)
  have h3 := loop3_value c i arg1 harg1 arg2 harg2 arg3 harg3 arg4 harg4 arg5 harg5 arg6 harg6 x0 x2 (rowsX x1) lab (loop1 (F := Ideal) c i arg1 harg1 arg2 harg2 arg3 harg3 arg4 harg4 arg5 harg5 arg6 harg6 x1).1 (loop2 (F := Ideal) c i arg1 harg1 arg2 harg2 arg3 harg3 arg4 harg4 arg5 harg5 arg6 harg6 x0 x1 x2).1
    (scratch0 (F := Ideal) c i arg1 harg1 arg2 harg2 arg3 harg3 arg4 harg4 arg5 harg5 arg6 harg6 x1) (scratch1 (F := Ideal) c i arg1 harg1 arg2 harg2 arg3 harg3 arg4 harg4 arg5 harg5 arg6 harg6 x0 x1 x2) hq hk
    (loop1_max c i arg1 harg1 arg2 harg2 arg3 harg3 arg4 harg4 arg5 harg5 arg6 harg6 x1) (loop2_sum c i arg1 harg1 arg2 harg2 arg3 harg3 arg4 harg4 arg5 harg5 arg6 harg6 x0 x1 x2 lab hq hk) hX5 hX6 p
  rw [← loop3_eq] at h3
  obtain ⟨hs, hc⟩ := h3
  unfold out0_A_3
  refine (View.read_writes_apply_of_pieces VO0_3 VO0_3.junk
    (k0_pay14 (F := Ideal) (loop3 (F := Ideal) c i arg1 harg1 arg2 harg2 arg3 harg3 arg4 harg4 arg5 harg5 arg6 harg6 x0 x1 x2).1 (loop3 (F := Ideal) c i arg1 harg1 arg2 harg2 arg3 harg3 arg4 harg4 arg5 harg5 arg6 harg6 x0 x1 x2).2) _ ?_ (ix2 p l)
    (cover0_A_3 (F := Ideal) c i arg1 harg1 arg2 harg2 arg3 harg3 arg4 harg4 arg5 harg5 arg6 harg6 x0 x1 x2 (ix2 p l))).trans ?_
  · intro pc hpc x
    have hpc' : pc ∈ outPieces (F := Ideal) c i arg1 harg1 arg2 harg2 arg3 harg3 arg4 harg4 arg5 harg5 arg6 harg6 x0 x1 x2 := hpc
    obtain rfl := List.mem_singleton.mp hpc'
    show k0_pay14 (F := Ideal) _ _ x = k0_pay14 (F := Ideal) _ _ _
    congr 1
    funext a
    apply Fin.ext
    match a with
    | ⟨0, _⟩ => show (x 0).val = 0 + 1 * (x 0).val; omega
    | ⟨1, _⟩ => show (x 1).val = 0 + 1 * (x 1).val; omega
  · rw [pay14_apply _ _ p l (by rw [hc]; exact hpos _), hs, hc]
    rfl

end Out

end Cert.KernelIdeal.Rows

end
-- ==== Proof.KernelValue.lean ====
/-
  The kernel program's result from its tile blocks.

  The grid has 32 points; point t works on rows 256·t … 256·t + 255.  Its label column is those rows of the
  stacked labels (a block's element sits, on each axis, at block index × block size + its coordinate inside the
  block, and the label column's block index at point t is (t, 0)); the stacked rows and the label row are resident
  whole (block index (0, 0)).  So the block the tile stores holds, in every lane of its row p, the loss of row
  256·t + p of the stacked rows under the stacked labels — every row has a positive, the same anchor in another
  view.  Point t writes that block back at rows 256·t … of the [8192, 128] result, and the 32 blocks cover it: row r
  lies in the block of point r / 256.  The result array therefore holds row r's loss in every lane of row r; the
  lines after the region take column 0, sum it from zero and divide by 8192, which is the mean loss.
-/
import proofs.«410188_j47519518162964_3_alg».proof.Proof.KernelHost
import proofs.«410188_j47519518162964_3_alg».proof.Proof.KernelHostTail
import proofs.«410188_j47519518162964_3_alg».proof.Proof.KernelLoop2
import proofs.«410188_j47519518162964_3_alg».proof.Proof.Chunks
import Idealize.ShloMosaic.Lib.Pipeline.Value

set_option maxRecDepth 16384

noncomputable section

open scoped BigOperators

namespace Cert.KernelIdeal.KernelValue

open Cert.KernelIdeal Cert.KernelIdeal.Gen Cert.KernelIdeal.GenP Cert.KernelIdeal.HostValue Cert.KernelIdeal.Rows
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The printed index maps -/

/-- The index maps over the grid: the label column and the result move one block of 256 rows per point, the
    stacked rows and the label row stay whole; the point's one coordinate is the point. -/
theorem idx_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = (grid0.coords t 0).val ∧ win0_3.index t (1 : Fin 2) = 0
    ∧ (grid0.coords t 0).val = t.val :=
  (by decide +kernel : ∀ t : Fin grid0.N, _)

/-! ## The input blocks at a point -/

/-- Entry p of the tile's label column is the label of the tile's row p. -/
theorem iblk0_apply (c : Dev nD) (t : Fin cfg0.N) (p : Fin 256) :
    ((iblk m c 0 t : Vec Ideal S256x1 .i32) (ix2 p 0) : BitVec 32)
      = Cert.Spec.stackLabels (m ((c : Thread nD τ).loc main_arg1)) (row (grid0.coords t) p) := by
  obtain ⟨e0, e1, -⟩ := idx_facts t
  show (V m c main_v5 : S8192x1.Idx → BitVec 32) (((cfg0.win 0).blk t).view.emb (ix2 p 0)) = _
  refine (congrArg (V m c main_v5 : S8192x1.Idx → BitVec 32)
    (?_ : _ = ix2 (row (grid0.coords t) p) (0 : Fin 1))).trans (V_labq m c _)
  funext a; apply Fin.ext
  match a with
  | ⟨0, _⟩ => show win0_0.index t (0 : Fin 2) * 256 + 1 * p.val = 256 * (grid0.coords t 0).val + p.val; rw [e0]; omega
  | ⟨1, _⟩ => show win0_0.index t (1 : Fin 2) * 1 + 1 * 0 = 0; rw [e1]

/-- The resident rows are the stacked rows of the features, at every point. -/
theorem iblk1_eq (c : Dev nD) (t : Fin cfg0.N) :
    rowsX (iblk m c 1 t) = Cert.Spec.stackRows (m ((c : Thread nD τ).loc main_arg0)) := by
  obtain ⟨-, -, e0, e1, -⟩ := idx_facts t
  funext r d
  show (V m c main_v1 : S8192x64.Idx → EReal) (((cfg0.win 1).blk t).view.emb (ix2 r d)) = _
  refine (congrArg (V m c main_v1 : S8192x64.Idx → EReal) (?_ : _ = ix2 r d)).trans (V_rows m c r d)
  funext a; apply Fin.ext
  match a with
  | ⟨0, _⟩ => show win0_1.index t (0 : Fin 2) * 8192 + 1 * r.val = r.val; rw [e0]; omega
  | ⟨1, _⟩ => show win0_1.index t (1 : Fin 2) * 64 + 1 * d.val = d.val; rw [e1]; omega

/-- Entry j of the resident label row is the label of row j, at every point. -/
theorem iblk2_apply (c : Dev nD) (t : Fin cfg0.N) (j : Fin 8192) :
    ((iblk m c 2 t : Vec Ideal S1x8192 .i32) (ix2 0 j) : BitVec 32)
      = Cert.Spec.stackLabels (m ((c : Thread nD τ).loc main_arg1)) j := by
  obtain ⟨-, -, -, -, e0, e1, -⟩ := idx_facts t
  show (V m c main_v6 : S1x8192.Idx → BitVec 32) (((cfg0.win 2).blk t).view.emb (ix2 0 j)) = _
  refine (congrArg (V m c main_v6 : S1x8192.Idx → BitVec 32) (?_ : _ = ix2 (0 : Fin 1) j)).trans (V_labk m c j)
  funext a; apply Fin.ext
  match a with
  | ⟨0, _⟩ => show win0_2.index t (0 : Fin 2) * 1 + 1 * 0 = 0; rw [e0]
  | ⟨1, _⟩ => show win0_2.index t (1 : Fin 2) * 8192 + 1 * j.val = j.val; rw [e1]; omega

/-! ## What a point stores -/

/-- Row r's loss from the two inputs of the program. -/
abbrev lossOf (c : Dev nD) (r : Fin 8192) : EReal :=
  Cert.Spec.lossRow (Cert.Spec.stackRows (m ((c : Thread nD τ).loc main_arg0)))
    (Cert.Spec.stackLabels (m ((c : Thread nD τ).loc main_arg1))) r

/-- The block point t stores holds, in every lane of its row p, the loss of row 256·t + p. -/
theorem outsAt0_apply (c : Dev nD) (t : Fin cfg0.N) (p : Fin 256) (l : Fin 128) :
    ((outsAt0 m c t : Vec Ideal S256x128 .f32) (ix2 p l) : EReal) = lossOf m c (row (grid0.coords t) p) := by
  unfold outsAt0
  refine (out_block c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (Cert.Spec.stackLabels (m ((c : Thread nD τ).loc main_arg1))) (iblk0_apply m c t) (iblk2_apply m c t)
    (Cert.Chunks.posCnt_pos _) p l).trans ?_
  rw [iblk1_eq]

/-! ## The result array -/

/-- The result array: every lane of row r holds row r's loss. -/
def G (c : Dev nD) : S8192x128.Idx → EReal := fun i => lossOf m c (i 0 : Fin 8192)

theorem G_apply (c : Dev nD) (r : Fin 8192) (l : Fin 128) : G m c (ix2 r l) = lossOf m c r := rfl

/-- What point t writes back is block t of `G`: entry (p, l) of the stored block lands at entry (256·t + p, l). -/
theorem flushed3_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  obtain ⟨-, -, -, -, -, -, e0, e1, -⟩ := idx_facts t
  funext y
  obtain ⟨p, l, rfl⟩ : ∃ (p : Fin 256) (l : Fin 128), y = ix2 p l := ⟨y 0, y 1, eq_ix2 y⟩
  show ((outsAt0 m c t : Vec Ideal S256x128 .f32) (ix2 p l) : EReal) = G m c (((cfg0.win 3).blk t).view.emb (ix2 p l))
  rw [outsAt0_apply]
  have hp := p.isLt
  have hi : (grid0.coords t 0).val < 32 := (grid0.coords t 0).isLt
  refine (G_apply m c (row (grid0.coords t) p) ⟨l.val, l.isLt⟩).symm.trans (congrArg (G m c) ?_)
  funext a; apply Fin.ext
  match a with
  | ⟨0, _⟩ => show 256 * (grid0.coords t 0).val + p.val = win0_3.index t (0 : Fin 2) * 256 + 1 * p.val; rw [e0]; omega
  | ⟨1, _⟩ => show l.val = win0_3.index t (1 : Fin 2) * 128 + 1 * l.val; rw [e1]; omega

/-- An index of the result is in point t's block iff each coordinate is in the block's range on its axis. -/
theorem mem_blk3 (t : Fin cfg0.N) (i : S8192x128.Idx) :
    i ∈ ((cfg0.win 3).blk t).view.set ↔ ∀ a : Fin 2, win0_3.index t a * S256x128.size a ≤ (i a).val ∧ (i a).val < win0_3.index t a * S256x128.size a + S256x128.size a := by
  show i ∈ ((View.whole main_v7).slice (win0_3.rect t)).set ↔ _
  rw [View.set_slice_whole, Rect.mem_set_unit]
  exact Iff.rfl

/-- The result array after the region is `G`: row r lies in the block of point r / 256, and every point writes back. -/
theorem final3 (c : Dev nD) : (dats m 0 c).arrAt 3 cfg0.N = G m c :=
  (dats m 0 c).arrAt_eq_of_cover 3 (G m c) (fun t _ => flushed3_eq m c t) fun i => by
    have h0 : (i 0).val < 8192 := (i 0).isLt
    have h1 : (i 1).val < 128 := (i 1).isLt
    have hN : cfg0.N = 32 := N_0
    refine ⟨⟨(i 0).val / 256, by omega⟩, flush0_3 _, ?_⟩
    rw [mem_blk3]
    obtain ⟨-, -, -, -, -, -, e0, e1, e2⟩ := idx_facts ⟨(i 0).val / 256, by omega⟩
    intro a
    match a with
    | ⟨0, _⟩ =>
      show win0_3.index _ (0 : Fin 2) * 256 ≤ (i 0).val ∧ (i 0).val < win0_3.index _ (0 : Fin 2) * 256 + 256
      rw [e0, e2]; show (i 0).val / 256 * 256 ≤ (i 0).val ∧ (i 0).val < (i 0).val / 256 * 256 + 256; omega
    | ⟨1, _⟩ =>
      show win0_3.index _ (1 : Fin 2) * 128 ≤ (i 1).val ∧ (i 1).val < win0_3.index _ (1 : Fin 2) * 128 + 128
      rw [e1]; omega

/-! ## The run, read -/

/-- Every weakly fair execution of the program terminates with the mean loss of the stacked rows under the stacked
    labels in its scalar output and its two inputs unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v11)
        = (fun _ => Cert.Spec.meanLoss (Cert.Spec.stackRows (m ((c.tc : Thread nD τ).loc main_arg0)))
            (Cert.Spec.stackLabels (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v11 v11_mem_rest).trans (tail_eq m c (final3 m c) (fun r => G_apply m c r 0)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.lean ====
/- The proof of `Cert.Claim`: the supervised contrastive loss of 8192 stacked feature rows (1024 anchors in 8 views)
   under their stacked labels. The kernel walks the 8192 columns in eight chunks of 1024, through two caches (the
   scaled inner products, then their shifted exponentials), carrying a row maximum and three row sums; the reference
   computes the same loss whole. On the extended reals both end at the one function of the rows and labels; the
   one named constant is the inverse temperature. -/
import proofs.«410188_j47519518162964_3_alg».proof.Defs
import proofs.«410188_j47519518162964_3_alg».proof.Proof.Assembly
import proofs.«410188_j47519518162964_3_alg».proof.Proof.KernelValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves,
  Claims.algebraic_of Cert.KernelIdeal.KernelValue.run⟩

end Cert.Proof

end
